-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x640000 32 := broadcastInDim S2x640000 ![] bcast_S_S2x640000 main_c_16
  let main_v45 : IVec S2x640000 1 := cmpi .sge main_arg1 main_v44
  let main_c_17 : IVec S_ 32 := constantI S_ 32 10000#32
  let main_v46 : IVec S2x640000 32 := broadcastInDim S2x640000 ![] bcast_S_S2x640000 main_c_17
  let main_v47 : IVec S2x640000 1 := cmpi .slt main_arg1 main_v46
  let main_v48 : IVec S2x640000 1 := andi main_v45 main_v47
  let main_c_18 : IVec S_ 1 := constantI S_ 1 1#1
  let main_v49 : IVec S_ 1 := (fun x v => Host.reduce IntOp.andi x v reducesTo_S2x640000_S_d0_1 h_S_) main_v48 main_c_18
  let main_v50 : IVec S_ 1 := andi main_v43 main_v49
  main_v50

def fn_part1 {F : FTy → Type} [FloatOps F] (main_arg1 : IVec S2x640000 32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S10000x128 .f32) (main_arg1 : IVec S2x640000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S10000x128 : Shape := ⟨2, ![10000, 128]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S10112x128 : Shape := ⟨2, ![10112, 128]⟩
abbrev S640000x128 : Shape := ⟨2, ![640000, 128]⟩
abbrev S2x10112x128 : Shape := ⟨3, ![2, 10112, 128]⟩
abbrev S1x128 : Shape := ⟨2, ![1, 128]⟩
abbrev S1x10112x128 : Shape := ⟨3, ![1, 10112, 128]⟩
abbrev S1x256 : Shape := ⟨2, ![1, 256]⟩
abbrev S256x1 : Shape := ⟨2, ![256, 1]⟩
abbrev S256x10112 : Shape := ⟨2, ![256, 10112]⟩
abbrev S128x256 : Shape := ⟨2, ![128, 256]⟩
abbrev S128x10112 : Shape := ⟨2, ![128, 10112]⟩
abbrev S2x10000x128 : Shape := ⟨3, ![2, 10000, 128]⟩
abbrev S5000x128 : Shape := ⟨2, ![5000, 128]⟩
abbrev S2x5000x128 : Shape := ⟨3, ![2, 5000, 128]⟩
abbrev S1x5000x128 : Shape := ⟨3, ![1, 5000, 128]⟩
abbrev S5000x256 : Shape := ⟨2, ![5000, 256]⟩

abbrev nBuf : Space → Nat
  | .hbm => 44
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S1x640000, .i32⟩
  | .hbm, ⟨21, _⟩ => ⟨S1x640000, .i32⟩
  | .hbm, ⟨22, _⟩ => ⟨S640000, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S1x640000, .i32⟩
  | .hbm, ⟨32, _⟩ => ⟨S10000x128, .bf16⟩
  | .hbm, ⟨33, _⟩ => ⟨S_, .i32⟩
  | .hbm, ⟨34, _⟩ => ⟨S_, .bf16⟩
  | .hbm, ⟨35, _⟩ => ⟨S10112x128, .bf16⟩
  | .hbm, ⟨36, _⟩ => ⟨S256x128, .bf16⟩
  | .hbm, ⟨37, _⟩ => ⟨S128x128, .bf16⟩
  | .hbm, ⟨38, _⟩ => ⟨S256x128, .bf16⟩
  | .hbm, ⟨39, _⟩ => ⟨S128x128, .bf16⟩
  | .hbm, ⟨40, _⟩ => ⟨S640000x128, .f32⟩
  | .hbm, ⟨41, _⟩ => ⟨S2x10112x128, .f32⟩
  | .hbm, ⟨42, _⟩ => ⟨S2x10000x128, .f32⟩
  | .hbm, ⟨43, _⟩ => ⟨S10000x128, .f32⟩
  | .local _ .vmem, ⟨0, _⟩ => ⟨S1x128, .i32⟩
  | .local _ .vmem, ⟨1, _⟩ => ⟨S1x128, .i32⟩
  | .local _ .vmem, ⟨2, _⟩ => ⟨S1x128, .i32⟩
  | .local _ .vmem, ⟨3, _⟩ => ⟨S1x128, .i32⟩
  | .local _ .vmem, ⟨4, _⟩ => ⟨S10112x128, .bf16⟩
  | .local _ .vmem, ⟨5, _⟩ => ⟨S256x128, .bf16⟩
  | .local _ .vmem, ⟨6, _⟩ => ⟨S128, .f32⟩
  | .local _ .vmem, ⟨7, _⟩ => ⟨S128x128, .bf16⟩
  | .local _ .vmem, ⟨8, _⟩ => ⟨S128, .f32⟩
  | .local _ .vmem, ⟨9, _⟩ => ⟨S128x128, .f32⟩
  | .local _ .vmem, ⟨10, _⟩ => ⟨S128x128, .f32⟩
  | .local _ .vmem, ⟨11, _⟩ => ⟨S1x10112x128, .f32⟩
  | .local _ .vmem, ⟨12, _⟩ => ⟨S5000x128, .f32⟩
  | .local _ .vmem, ⟨13, _⟩ => ⟨S2x5000x128, .f32⟩
  | .local _ .vmem, ⟨14, _⟩ => ⟨S256x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S5000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_call2_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18

abbrev nD : Nat := 1
abbrev τ : Topo := Topo.v7x

variable {F : FTy → Type} [FloatOps F]

abbrev grid0 : Pipeline.Grid := ⟨2, ![2, 2500], ![false, false]⟩

def cc0_transform_0 (i : grid0.Coords) : Fin 2 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10112x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x10112x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S5000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2x5000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5000x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  shapeCasts_S640000_S1x640000 : S640000.ShapeCasts S1x640000
  slices_S2x640000_S1x640000_1_0 : S2x640000.Slices ![1, 0] S1x640000
  bitsLt_bf16_f32 : FTy.bits .bf16 < FTy.bits .f32
  pads_S10000x128_S10112x128_01120_000 : S10000x128.Pads (![0, 0] : Fin 2 → Nat) ![112, 0] ![0, 0] S10112x128
  h_S_ : 0 < S_.numel
  inb_S1x10112x128_S1x10112x128_0_0_0 : ∀ a, (![0, 0, 0] : Fin 3 → Nat) a + S1x10112x128.size a ≤ S1x10112x128.size a
  h_S1x10112x128 : 0 < S1x10112x128.numel
  shapeCasts_S1x10112x128_S10112x128 : S1x10112x128.ShapeCasts S10112x128
  shapeCasts_S10112x128_S1x10112x128 : S10112x128.ShapeCasts S1x10112x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  concatenates_S1x128_S1x128_S1x256_d1 : Shape.Concatenates [S1x128, S1x128] S1x256 1
  shapeCasts_S1x256_S256x1 : S1x256.ShapeCasts S256x1
  iota_S256x10112_d1_w32 : S256x10112.Iotas .tc 32 [1]
  broadcasts_S256x1_S256x10112 : S256x1.Broadcasts S256x10112
  natLt_1_32 : 1 < 32
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  slices_S256x128_o0_0_S128x128 : S256x128.Slices ![0, 0] S128x128
  slices_S256x128_o128_0_S128x128 : S256x128.Slices ![128, 0] S128x128
  concatenates_S128x128_S128x128_S128x256_d1 : Shape.Concatenates [S128x128, S128x128] S128x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S256x10112_o0_0_S128x10112 : S256x10112.Slices ![0, 0] S128x10112
  slices_S2x10112x128_S2x10000x128_0_0_0 : S2x10112x128.Slices ![0, 0, 0] S2x10000x128
  inb_S5000x128_S5000x128_0_0 : ∀ a, (![0, 0] : Fin 2 → Nat) a + S5000x128.size a ≤ S5000x128.size a
  h_S5000x128 : 0 < S5000x128.numel
  inb_S2x5000x128_S1x5000x128_0_0_0 : ∀ a, (![0, 0, 0] : Fin 3 → Nat) a + S1x5000x128.size a ≤ S2x5000x128.size a
  h_S1x5000x128 : 0 < S1x5000x128.numel
  shapeCasts_S1x5000x128_S5000x128 : S1x5000x128.ShapeCasts S5000x128
  inb_S2x5000x128_S1x5000x128_1_0_0 : ∀ a, (![1, 0, 0] : Fin 3 → Nat) a + S1x5000x128.size a ≤ S2x5000x128.size a
  concatenates_S5000x128_S5000x128_S5000x256_d1 : Shape.Concatenates [S5000x128, S5000x128] S5000x256 1
  broadcasts_S1x128_S5000x128 : S1x128.Broadcasts S5000x128
  dot_S256x10112_S10112x128_S256x128_1_0_0_1_n_n_wf : DotDims.WF S256x10112 S10112x128 S256x128 [1] [0] [0] [1] [] []
  dot_S128x256_S256x128_S128x128_1_0_0_1_n_n_wf : DotDims.WF S128x256 S256x128 S128x128 [1] [0] [0] [1] [] []
  dot_S128x128_S128x128_S128x128_1_0_0_1_n_n_wf : DotDims.WF S128x128 S128x128 S128x128 [1] [0] [0] [1] [] []
  dot_S128x10112_S128x128_S10112x128_0_0_1_1_n_n_wf : DotDims.WF S128x10112 S128x128 S10112x128 [0] [0] [1] [1] [] []
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x640000.size a
  hwx0_0 : ∀ i : grid0.Coords, EltTy.bits .i32 = 32 ∨ (Rect.block (s := S1x640000) S1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x640000.size a
  hwx0_1 : ∀ i : grid0.Coords, EltTy.bits .i32 = 32 ∨ (Rect.block (s := S1x640000) S1x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10112x128.size a ≤ S10112x128.size a
  hwx0_2 : ∀ i : grid0.Coords, EltTy.bits .bf16 = 32 ∨ (Rect.block (s := S10112x128) S10112x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S640000x128.size a
  hwx0_7 : ∀ i : grid0.Coords, EltTy.bits .f32 = 32 ∨ (Rect.block (s := S640000x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10112x128.size a ≤ S2x10112x128.size a
  hwx0_8 : ∀ i : grid0.Coords, EltTy.bits .f32 = 32 ∨ (Rect.block (s := S2x10112x128) S1x10112x128.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S10000x128.size a
  hwx1_0 : ∀ i : grid1.Coords, EltTy.bits .f32 = 32 ∨ (Rect.block (s := S10000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x5000x128.size a ≤ S2x10000x128.size a
  hwx1_1 : ∀ i : grid1.Coords, EltTy.bits .f32 = 32 ∨ (Rect.block (s := S2x10000x128) S2x5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S10000x128.size a
  hwx1_6 : ∀ i : grid1.Coords, EltTy.bits .f32 = 32 ∨ (Rect.block (s := S10000x128) S5000x128.size (cc1_transform_6 i) (hinb1_6 i)).WholeWords (EltTy.packing .f32)

variable [Facts₀]

def dot_S256x10112_S10112x128_S256x128_1_0_0_1_n_n : DotDims S256x10112 S10112x128 S256x128 where
  lhsContracting := [1]
  rhsContracting := [0]
  lhsNonContracting := [0]
  rhsNonContracting := [1]
  lhsBatch := []
  rhsBatch := []
  wf := dot_S256x10112_S10112x128_S256x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x10112_S128x128_S10112x128_0_0_1_1_n_n : DotDims S128x10112 S128x128 S10112x128 where
  lhsContracting := [0]
  rhsContracting := [0]
  lhsNonContracting := [1]
  rhsNonContracting := [1]
  lhsBatch := []
  rhsBatch := []
  wf := dot_S128x10112_S128x128_S10112x128_0_0_1_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v3) S1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10112x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S128x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S1x10112x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S5000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2x5000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S5000x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩
abbrev S10000x256 : Shape := ⟨2, ![10000, 256]⟩

abbrev nBuf : Space → Nat
  | .hbm => 85
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S640000x256, .f32⟩
  | .hbm, ⟨33, _⟩ => ⟨S640000x128, .f32⟩
  | .hbm, ⟨34, _⟩ => ⟨S1x128, .f32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S640000x128, .f32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S1x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S640000x128, .f32⟩
  | .hbm, ⟨54, _⟩ => ⟨S640000x128, .f32⟩
  | .hbm, ⟨55, _⟩ => ⟨S_, .f32⟩
  | .hbm, ⟨56, _⟩ => ⟨S640000x128, .f32⟩
  | .hbm, ⟨57, _⟩ => ⟨S640000x128, .f32⟩
  | .hbm, ⟨58, _⟩ => ⟨S640000x128, .f32⟩
  | .hbm, ⟨59, _⟩ => ⟨S_, .f32⟩
  | .hbm, ⟨60, _⟩ => ⟨S10000x128, .f32⟩
  | .hbm, ⟨61, _⟩ => ⟨S640000x1, .i32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S10000x256, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S10000x128, .f32⟩
  | .hbm, ⟨81, _⟩ => ⟨S1x128, .f32⟩
  | .hbm, ⟨82, _⟩ => ⟨S10000x128, .f32⟩
  | .hbm, ⟨83, _⟩ => ⟨S10000x128, .f32⟩
  | .hbm, ⟨84, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v28 : Ref sig .tc := ⟨.hbm, 58, rfl⟩
abbrev main_cst : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x128_S640000x128_1_0_0_1_n_n_wf : DotDims.WF S640000x128 S128x128 S640000x128 [1] [0] [0] [1] [] []
  scatter_S10000x128_S640000x1_S640000x128_1_0_0_1_wf : ScatterDims.WF S10000x128 S640000x1 S640000x128 [1] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.EdgeIndex.lean ====
/-
  Where each window's block sits at a grid point, decided once over the two grids.

  Edge kernel, step t of 5000 (core t / 2500, its step t % 2500): the source and target words of step t are columns
  128 t … 128 t + 127 of their 1 × 640000 rows; the node table, the weights and the biases are read whole at every step;
  the message block of step t is rows 128 t … 128 t + 127 of the 640000 × 128 result; the aggregate of core t / 2500 is
  slab t / 2500 of the 2 × 10112 × 128 result. Node kernel, step t of 2: rows 5000 t … 5000 t + 4999 of the old rows, of
  both slabs of the aggregates and of the result; weights and biases whole.
-/
import proofs.«429792_j52192442581787_3_alg».proof.Proof.Gen.KernelIdeal.Frame

namespace Cert.KernelIdeal.Edge

open Cert.KernelIdeal Cert.KernelIdeal.Gen Idealize.ShloMosaic

/-- The edge kernel's nine windows at step t. -/
theorem edge_index : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = t.val ∧ win0_7.index t (1 : Fin 2) = 0)
    ∧ (win0_8.index t (0 : Fin 3) = t.val / 2500 ∧ win0_8.index t (1 : Fin 3) = 0 ∧ win0_8.index t (2 : Fin 3) = 0) :=
  (by decide +kernel : ∀ t : Fin grid0.N, _)

/-- The node kernel's seven windows at step t. -/
theorem node_index : ∀ t : Fin cfg1.N,
    (win1_0.index t (0 : Fin 2) = t.val ∧ win1_0.index t (1 : Fin 2) = 0)
    ∧ (win1_1.index t (0 : Fin 3) = 0 ∧ win1_1.index t (1 : Fin 3) = t.val ∧ win1_1.index t (2 : Fin 3) = 0)
    ∧ (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 2) = t.val ∧ win1_6.index t (1 : Fin 2) = 0) :=
  (by decide +kernel : ∀ t : Fin grid1.N, _)

end Cert.KernelIdeal.Edge
-- ==== Proof.EdgeRegion.lean ====
/-
  The edge kernel's region, read as values: what its two result buffers hold after every step.

  The region runs 5000 steps, 2500 per core. A step loads 128 source words, 128 target words, the node table, the
  weights and the biases, and stores (1) its 128 × 128 block of messages and (2) the core's aggregate, which the first
  step of a core's run resets to zero before adding and every later step adds onto. Here: each case's stores, read back,
  are the step's arithmetic as one term (`out_A_7` … `out_B_8`); so after every step the message buffer holds that
  step's block (`outsAt_fst`) and the aggregate's buffer holds the fold of the run's steps from the zero array
  (`outsAt_snd_fold`, an induction on the step inside its run, never over the 5000 steps); and each input block is read
  off its array where the step's window sits (`blk0_apply` … `blk6_eq`). Everything here holds at any float instance.
-/
import proofs.«429792_j52192442581787_3_alg».proof.Proof.Gen.KernelIdeal.Frame
import proofs.«429792_j52192442581787_3_alg».proof.Proof.EdgeIndex
import Idealize.ShloMosaic.Lib.Pipeline.Value
import Idealize.ShloMosaic.Lib.Tactic
import Idealize.ShloMosaic.Lib.ValueIdx

set_option maxRecDepth 16384

noncomputable section

namespace Cert.KernelIdeal.Edge

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 128 × 128 block of messages a step computes from its seven input blocks. -/
abbrev msgBlk (x0 : Vec F S1x128 .i32) (x1 : Vec F S1x128 .i32) (x2 : Vec F S10112x128 .bf16) (x3 : Vec F S256x128 .bf16) (x4 : Vec F S128 .f32) (x5 : Vec F S128x128 .bf16) (x6 : Vec F S128 .f32) : FVec F S128x128 .f32 :=
  k0_pay1 (k0_pay5 x0 x1 x2 x3 x4 x5 x6) (k0_pay6 x0 x1 x2 x3 x4 x5 x6)

/-- What a step leaves in the aggregate's buffer when it found `acc` there. -/
abbrev aggNext (x0 : Vec F S1x128 .i32) (x1 : Vec F S1x128 .i32) (x2 : Vec F S10112x128 .bf16) (x3 : Vec F S256x128 .bf16) (x4 : Vec F S128 .f32) (x5 : Vec F S128x128 .bf16) (x6 : Vec F S128 .f32) (acc : Vec F S1x10112x128 .f32) : FVec F S1x10112x128 .f32 :=
  k0_pay2 (k0_pay4 x0 x1) (k0_pay5 x0 x1 x2 x3 x4 x5 x6) (k0_pay6 x0 x1 x2 x3 x4 x5 x6) acc

/-- A first step of a core's run leaves the step's message block in the message buffer … -/
theorem out_A_7 (c : Dev nD) (i : grid0.Coords) (a2 : Memref sig .tc .vmem S1x128 .i32) (h2 : a2.IsWhole) (a3 : Memref sig .tc .vmem S1x128 .i32) (h3 : a3.IsWhole) (a4 : Memref sig .tc .vmem S10112x128 .bf16) (h4 : a4.IsWhole) (a5 : Memref sig .tc .vmem S256x128 .bf16) (h5 : a5.IsWhole) (a6 : Memref sig .tc .vmem S128 .f32) (h6 : a6.IsWhole) (a7 : Memref sig .tc .vmem S128x128 .bf16) (h7 : a7.IsWhole) (a8 : Memref sig .tc .vmem S128 .f32) (h8 : a8.IsWhole) (a9 : Memref sig .tc .vmem S128x128 .f32) (h9 : a9.IsWhole) (a10 : Memref sig .tc .vmem S1x10112x128 .f32) (h10 : a10.IsWhole) (hc : cond0_0 i) (x0 : Vec F S1x128 .i32) (x1 : Vec F S1x128 .i32) (x2 : Vec F S10112x128 .bf16) (x3 : Vec F S256x128 .bf16) (x4 : Vec F S128 .f32) (x5 : Vec F S128x128 .bf16) (x6 : Vec F S128 .f32) :
    out0_A_7 c i a2 h2 a3 h3 a4 h4 a5 h5 a6 h6 a7 h7 a8 h8 a9 h9 a10 h10 hc x0 x1 x2 x3 x4 x5 x6 = msgBlk x0 x1 x2 x3 x4 x5 x6 := by
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h10.read_unread,
    View.ld_unit_zero (S := S1x128) hz2, View.ld_unit_zero (S := S10112x128) hz2, View.ld_unit_zero (S := S256x128) hz2, View.ld_unit_zero (S := S128x128) hz2,
    View.ld_unit_zero (S := S128) hz1, View.ld_unit_zero (S := S1x10112x128) hz3, View.readCov_unit_zero (S := S1x10112x128) _ hz3]

/-- … and, having first stored the zero array, the step over the zero array in the aggregate's buffer. -/
theorem out_A_8 (c : Dev nD) (i : grid0.Coords) (a2 : Memref sig .tc .vmem S1x128 .i32) (h2 : a2.IsWhole) (a3 : Memref sig .tc .vmem S1x128 .i32) (h3 : a3.IsWhole) (a4 : Memref sig .tc .vmem S10112x128 .bf16) (h4 : a4.IsWhole) (a5 : Memref sig .tc .vmem S256x128 .bf16) (h5 : a5.IsWhole) (a6 : Memref sig .tc .vmem S128 .f32) (h6 : a6.IsWhole) (a7 : Memref sig .tc .vmem S128x128 .bf16) (h7 : a7.IsWhole) (a8 : Memref sig .tc .vmem S128 .f32) (h8 : a8.IsWhole) (a9 : Memref sig .tc .vmem S128x128 .f32) (h9 : a9.IsWhole) (a10 : Memref sig .tc .vmem S1x10112x128 .f32) (h10 : a10.IsWhole) (hc : cond0_0 i) (x0 : Vec F S1x128 .i32) (x1 : Vec F S1x128 .i32) (x2 : Vec F S10112x128 .bf16) (x3 : Vec F S256x128 .bf16) (x4 : Vec F S128 .f32) (x5 : Vec F S128x128 .bf16) (x6 : Vec F S128 .f32) :
    out0_A_8 c i a2 h2 a3 h3 a4 h4 a5 h5 a6 h6 a7 h7 a8 h8 a9 h9 a10 h10 hc x0 x1 x2 x3 x4 x5 x6 = aggNext x0 x1 x2 x3 x4 x5 x6 (k0_pay3 (F := F)) := by
  unfold out0_A_8
  rw [View.read_writes_eq_canon _ _ _ (cover0_A_8 c i a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x10112x128) hz3]
  simp only [View.readAt_eq_ld, h2.read_unread, h3.read_unread, h4.read_unread, h5.read_unread, h6.read_unread, h7.read_unread, h8.read_unread, h10.read_unread,
    View.ld_unit_zero (S := S1x128) hz2, View.ld_unit_zero (S := S10112x128) hz2, View.ld_unit_zero (S := S256x128) hz2, View.ld_unit_zero (S := S128x128) hz2,
    View.ld_unit_zero (S := S128) hz1, View.ld_unit_zero (S := S1x10112x128) hz3, View.readCov_unit_zero (S := S1x10112x128) _ hz3]

/-- A later step leaves its message block in the message buffer … -/
theorem out_B_7 (c : Dev nD) (i : grid0.Coords) (a2 : Memref sig .tc .vmem S1x128 .i32) (h2 : a2.IsWhole) (a3 : Memref sig .tc .vmem S1x128 .i32) (h3 : a3.IsWhole) (a4 : Memref sig .tc .vmem S10112x128 .bf16) (h4 : a4.IsWhole) (a5 : Memref sig .tc .vmem S256x128 .bf16) (h5 : a5.IsWhole) (a6 : Memref sig .tc .vmem S128 .f32) (h6 : a6.IsWhole) (a7 : Memref sig .tc .vmem S128x128 .bf16) (h7 : a7.IsWhole) (a8 : Memref sig .tc .vmem S128 .f32) (h8 : a8.IsWhole) (a9 : Memref sig .tc .vmem S128x128 .f32) (h9 : a9.IsWhole) (a10 : Memref sig .tc .vmem S1x10112x128 .f32) (h10 : a10.IsWhole) (hc : ¬cond0_0 i) (x0 : Vec F S1x128 .i32) (x1 : Vec F S1x128 .i32) (x2 : Vec F S10112x128 .bf16) (x3 : Vec F S256x128 .bf16) (x4 : Vec F S128 .f32) (x5 : Vec F S128x128 .bf16) (x6 : Vec F S128 .f32) (xo8 : Vec F S1x10112x128 .f32) :
    out0_B_7 c i a2 h2 a3 h3 a4 h4 a5 h5 a6 h6 a7 h7 a8 h8 a9 h9 a10 h10 hc x0 x1 x2 x3 x4 x5 x6 xo8 = msgBlk x0 x1 x2 x3 x4 x5 x6 := by
  unfold out0_B_7
  rw [View.read_writes_eq_canon _ _ _ (cover0_B_7 c i a2 h2 a3 h3 a4 h4 a5 h5 a6 h6 a7 h7 a8 h8 a9 h9 a10 h10 hc x0 x1 x2 x3 x4 x5 x6 xo8)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h10.read_unread,
    View.ld_unit_zero (S := S1x128) hz2, View.ld_unit_zero (S := S10112x128) hz2, View.ld_unit_zero (S := S256x128) hz2, View.ld_unit_zero (S := S128x128) hz2,
    View.ld_unit_zero (S := S128) hz1, View.ld_unit_zero (S := S1x10112x128) hz3, View.readCov_unit_zero (S := S1x10112x128) _ hz3]

/-- … and the step over what the step before left in the aggregate's buffer. -/
theorem out_B_8 (c : Dev nD) (i : grid0.Coords) (a2 : Memref sig .tc .vmem S1x128 .i32) (h2 : a2.IsWhole) (a3 : Memref sig .tc .vmem S1x128 .i32) (h3 : a3.IsWhole) (a4 : Memref sig .tc .vmem S10112x128 .bf16) (h4 : a4.IsWhole) (a5 : Memref sig .tc .vmem S256x128 .bf16) (h5 : a5.IsWhole) (a6 : Memref sig .tc .vmem S128 .f32) (h6 : a6.IsWhole) (a7 : Memref sig .tc .vmem S128x128 .bf16) (h7 : a7.IsWhole) (a8 : Memref sig .tc .vmem S128 .f32) (h8 : a8.IsWhole) (a9 : Memref sig .tc .vmem S128x128 .f32) (h9 : a9.IsWhole) (a10 : Memref sig .tc .vmem S1x10112x128 .f32) (h10 : a10.IsWhole) (hc : ¬cond0_0 i) (x0 : Vec F S1x128 .i32) (x1 : Vec F S1x128 .i32) (x2 : Vec F S10112x128 .bf16) (x3 : Vec F S256x128 .bf16) (x4 : Vec F S128 .f32) (x5 : Vec F S128x128 .bf16) (x6 : Vec F S128 .f32) (xo8 : Vec F S1x10112x128 .f32) :
    out0_B_8 c i a2 h2 a3 h3 a4 h4 a5 h5 a6 h6 a7 h7 a8 h8 a9 h9 a10 h10 hc x0 x1 x2 x3 x4 x5 x6 xo8 = aggNext x0 x1 x2 x3 x4 x5 x6 xo8 := by
  unfold out0_B_8
  rw [View.read_writes_eq_canon _ _ _ (cover0_B_8 c i a2 h2 a3 h3 a4 h4 a5 h5 a6 h6 a7 h7 a8 h8 a9 h9 a10 h10 hc x0 x1 x2 x3 x4 x5 x6 xo8)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h10.read_unread,
    View.ld_unit_zero (S := S1x128) hz2, View.ld_unit_zero (S := S10112x128) hz2, View.ld_unit_zero (S := S256x128) hz2, View.ld_unit_zero (S := S128x128) hz2,
    View.ld_unit_zero (S := S128) hz1, View.ld_unit_zero (S := S1x10112x128) hz3, View.readCov_unit_zero (S := S1x10112x128) _ hz3]

section Fold

variable (V : (c : Dev nD) → (b : Ref sig .tc) → Buf (Elt F) ((c : Thread nD τ).loc b))

/-- The seven input blocks of a step, each at its literal type. -/
abbrev blk0 (c : Dev nD) (t : Fin cfg0.N) : Vec F S1x128 .i32 := iblk0 V c 0 t
abbrev blk1 (c : Dev nD) (t : Fin cfg0.N) : Vec F S1x128 .i32 := iblk0 V c 1 t
abbrev blk2 (c : Dev nD) (t : Fin cfg0.N) : Vec F S10112x128 .bf16 := iblk0 V c 2 t
abbrev blk3 (c : Dev nD) (t : Fin cfg0.N) : Vec F S256x128 .bf16 := iblk0 V c 3 t
abbrev blk4 (c : Dev nD) (t : Fin cfg0.N) : Vec F S128 .f32 := iblk0 V c 4 t
abbrev blk5 (c : Dev nD) (t : Fin cfg0.N) : Vec F S128x128 .bf16 := iblk0 V c 5 t
abbrev blk6 (c : Dev nD) (t : Fin cfg0.N) : Vec F S128 .f32 := iblk0 V c 6 t

/-- The message block of step t. -/
abbrev msgAt (c : Dev nD) (t : Fin cfg0.N) : FVec F S128x128 .f32 := msgBlk (blk0 V c t) (blk1 V c t) (blk2 V c t) (blk3 V c t) (blk4 V c t) (blk5 V c t) (blk6 V c t)

/-- Step t applied to an aggregate. -/
abbrev aggStepAt (c : Dev nD) (t : Fin cfg0.N) (acc : Vec F S1x10112x128 .f32) : FVec F S1x10112x128 .f32 :=
  aggNext (blk0 V c t) (blk1 V c t) (blk2 V c t) (blk3 V c t) (blk4 V c t) (blk5 V c t) (blk6 V c t) acc

/-- After every step the message buffer holds that step's message block. -/
theorem outsAt_fst (c : Dev nD) (t : Fin cfg0.N) : (outsAt0 V c t.val t.isLt).1 = msgAt V c t := by
  by_cases h0 : t.val % 2500 = 0
  · rw [outsAt0_A V c t h0]
    dsimp only
    exact out_A_7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (blk0 V c t) (blk1 V c t) (blk2 V c t) (blk3 V c t) (blk4 V c t) (blk5 V c t) (blk6 V c t)
  · rw [outsAt0_B V c t h0]
    dsimp only
    exact out_B_7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (blk0 V c t) (blk1 V c t) (blk2 V c t) (blk3 V c t) (blk4 V c t) (blk5 V c t) (blk6 V c t) _

/-- After a first step of a core's run the aggregate's buffer holds the step over the zero array. -/
theorem outsAt_snd_first (c : Dev nD) (t : Fin cfg0.N) (h0 : t.val % 2500 = 0) :
    (outsAt0 V c t.val t.isLt).2 = aggStepAt V c t (k0_pay3 (F := F)) := by
  rw [outsAt0_A V c t h0]
  dsimp only
  exact out_A_8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (blk0 V c t) (blk1 V c t) (blk2 V c t) (blk3 V c t) (blk4 V c t) (blk5 V c t) (blk6 V c t)

/-- After a later step it holds the step over what the step before left. -/
theorem outsAt_snd_later (c : Dev nD) (t : Fin cfg0.N) (h0 : ¬t.val % 2500 = 0) :
    (outsAt0 V c t.val t.isLt).2
      = aggStepAt V c t (outsAt0 V c (t.val - 1) (Nat.lt_of_le_of_lt (Nat.sub_le _ _) t.isLt)).2 := by
  rw [outsAt0_B V c t h0]
  dsimp only
  exact out_B_8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (blk0 V c t) (blk1 V c t) (blk2 V c t) (blk3 V c t) (blk4 V c t) (blk5 V c t) (blk6 V c t) _

/-- So at step t the aggregate's buffer holds the fold of the steps of the run of 2500 that t lies in, from the zero array. -/
theorem outsAt_snd_fold (c : Dev nD) (t : Fin cfg0.N) (h' : 2500 * (t.val / 2500) + t.val % 2500 < cfg0.N) :
    (outsAt0 V c t.val t.isLt).2
      = Pipeline.accAt (N := cfg0.N) (fun n h => aggStepAt V c ⟨n, h⟩ (k0_pay3 (F := F)))
          (fun n h acc => aggStepAt V c ⟨n, h⟩ acc) (2500 * (t.val / 2500)) (t.val % 2500) h' :=
  Pipeline.eq_accAt_of_mod (fun n h => (outsAt0 V c n h).2) 2500
    (fun n h => aggStepAt V c ⟨n, h⟩ (k0_pay3 (F := F))) (fun n h acc => aggStepAt V c ⟨n, h⟩ acc)
    (fun n h h0 => outsAt_snd_first V c ⟨n, h⟩ h0)
    (fun n h hne => outsAt_snd_later V c ⟨n + 1, h⟩ hne)
    (by decide) t.val t.isLt h'

end Fold

section Reads

variable (V : (c : Dev nD) → (b : Ref sig .tc) → Buf (Elt F) ((c : Thread nD τ).loc b))

/-- The arrays the edge kernel's windows are cut from, as the region finds them, each at its literal type. -/
abbrev srcArr (c : Dev nD) : Vec F S1x640000 .i32 := V c main_v3
abbrev dstArr (c : Dev nD) : Vec F S1x640000 .i32 := V c main_v7
abbrev tblArr (c : Dev nD) : Vec F S10112x128 .bf16 := V c main_v9
abbrev ew1Arr (c : Dev nD) : Vec F S256x128 .bf16 := V c main_v10
abbrev eb1Arr (c : Dev nD) : Vec F S128 .f32 := V c main_arg3
abbrev ew2Arr (c : Dev nD) : Vec F S128x128 .bf16 := V c main_v11
abbrev eb2Arr (c : Dev nD) : Vec F S128 .f32 := V c main_arg5

theorem edge_lt (t : Fin cfg0.N) (p : Fin 128) : 128 * t.val + p.val < 640000 := by
  have h := t.isLt; have hN : cfg0.N = 5000 := N_0; have hp := p.isLt; omega

/-- Word p of step t's source block is word 128 t + p of the source row. -/
theorem blk0_apply (c : Dev nD) (t : Fin cfg0.N) (p : Fin 128) :
    blk0 V c t (ix2 (0 : Fin 1) p) = srcArr V c (ix2 (0 : Fin 1) (⟨128 * t.val + p.val, edge_lt t p⟩ : Fin 640000)) := by
  obtain ⟨⟨e0, e1⟩, -⟩ := edge_index t
  show iblk0 V c 0 t (ix2 (0 : Fin 1) p) = _
  unfold iblk0
  rw [View.read_apply]
  show V c main_v3 (((cfg0.win 0).blk t).view.emb (ix2 (0 : Fin 1) p)) = V c main_v3 _
  congr 1
  funext a; apply Fin.ext
  match a with
  | ⟨0, _⟩ => show win0_0.index t (0 : Fin 2) * 1 + 1 * 0 = 0; omega
  | ⟨1, _⟩ => show win0_0.index t (1 : Fin 2) * 128 + 1 * p.val = 128 * t.val + p.val; omega

/-- Word p of step t's target block is word 128 t + p of the target row. -/
theorem blk1_apply (c : Dev nD) (t : Fin cfg0.N) (p : Fin 128) :
    blk1 V c t (ix2 (0 : Fin 1) p) = dstArr V c (ix2 (0 : Fin 1) (⟨128 * t.val + p.val, edge_lt t p⟩ : Fin 640000)) := by
  obtain ⟨-, ⟨e0, e1⟩, -⟩ := edge_index t
  show iblk0 V c 1 t (ix2 (0 : Fin 1) p) = _
  unfold iblk0
  rw [View.read_apply]
  show V c main_v7 (((cfg0.win 1).blk t).view.emb (ix2 (0 : Fin 1) p)) = V c main_v7 _
  congr 1
  funext a; apply Fin.ext
  match a with
  | ⟨0, _⟩ => show win0_1.index t (0 : Fin 2) * 1 + 1 * 0 = 0; omega
  | ⟨1, _⟩ => show win0_1.index t (1 : Fin 2) * 128 + 1 * p.val = 128 * t.val + p.val; omega

/-- The table, the weights and the biases are read whole at every step. -/
theorem blk2_eq (c : Dev nD) (t : Fin cfg0.N) : blk2 V c t = tblArr V c := by
  obtain ⟨-, -, ⟨e0, e1⟩, -⟩ := edge_index t
  funext y
  show iblk0 V c 2 t y = V c main_v9 y
  unfold iblk0
  rw [View.read_apply]
  show V c main_v9 (((cfg0.win 2).blk t).view.emb y) = V c main_v9 y
  congr 1
  funext a; apply Fin.ext
  match a with
  | ⟨0, _⟩ => show win0_2.index t (0 : Fin 2) * 10112 + 1 * (y 0).val = (y 0).val; omega
  | ⟨1, _⟩ => show win0_2.index t (1 : Fin 2) * 128 + 1 * (y 1).val = (y 1).val; omega

theorem blk3_eq (c : Dev nD) (t : Fin cfg0.N) : blk3 V c t = ew1Arr V c := by
  obtain ⟨-, -, -, ⟨e0, e1⟩, -⟩ := edge_index t
  funext y
  show iblk0 V c 3 t y = V c main_v10 y
  unfold iblk0
  rw [View.read_apply]
  show V c main_v10 (((cfg0.win 3).blk t).view.emb y) = V c main_v10 y
  congr 1
  funext a; apply Fin.ext
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem blk4_eq (c : Dev nD) (t : Fin cfg0.N) : blk4 V c t = eb1Arr V c := by
  obtain ⟨-, -, -, -, e0, -⟩ := edge_index t
  funext y
  show iblk0 V c 4 t y = V c main_arg3 y
  unfold iblk0
  rw [View.read_apply]
  show V c main_arg3 (((cfg0.win 4).blk t).view.emb y) = V c main_arg3 y
  congr 1
  funext a; apply Fin.ext
  match a with
  | ⟨0, _⟩ => show win0_4.index t (0 : Fin 1) * 128 + 1 * (y 0).val = (y 0).val; omega

theorem blk5_eq (c : Dev nD) (t : Fin cfg0.N) : blk5 V c t = ew2Arr V c := by
  obtain ⟨-, -, -, -, -, ⟨e0, e1⟩, -⟩ := edge_index t
  funext y
  show iblk0 V c 5 t y = V c main_v11 y
  unfold iblk0
  rw [View.read_apply]
  show V c main_v11 (((cfg0.win 5).blk t).view.emb y) = V c main_v11 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk6_eq (c : Dev nD) (t : Fin cfg0.N) : blk6 V c t = eb2Arr V c := by
  obtain ⟨-, -, -, -, -, -, e0, -⟩ := edge_index t
  funext y
  show iblk0 V c 6 t y = V c main_arg5 y
  unfold iblk0
  rw [View.read_apply]
  show V c main_arg5 (((cfg0.win 6).blk t).view.emb y) = V c main_arg5 y
  congr 1
  funext a; apply Fin.ext
  match a with
  | ⟨0, _⟩ => show win0_6.index t (0 : Fin 1) * 128 + 1 * (y 0).val = (y 0).val; omega

end Reads

end Cert.KernelIdeal.Edge

end
-- ==== Proof.Spec.lean ====
/-
  One round of message passing on a graph, as plain functions over the extended reals.

  A graph of 10000 nodes carries a feature row of 128 numbers per node, `h`. Each of its 640000 edges has a source and a
  target node. The message of an edge is a two-layer perceptron with the activation x · σ(x) after each layer, applied to
  the source's row and the target's row laid side by side (256 numbers). A node's aggregate is the sum of the messages of
  the edges that leave it, divided by 100. The new row of a node is its old row plus a second two-layer perceptron
  (activation after the first layer only) of the old row and the aggregate side by side.

  Nothing here mentions a program: the two programs are each shown to compute `msgOf` and `updOf` of their arguments.
  No hypothesis of finiteness is used anywhere: every step is a sum, a product or a function applied to one number, and
  the two programs differ only in how the same sums are grouped and in how a row is looked up.
-/
import Idealize.ShloMosaic.PureOps.Ideal
import Idealize.ShloMosaic.Lib.ValueIdx

noncomputable section

open scoped BigOperators

namespace Cert.Gcl

open Idealize.ShloMosaic Idealize.ShloMosaic.ValueIdx

/-- The activation x · σ(x), σ the logistic function 1 / (1 + e⁻ˣ). -/
def silu (x : EReal) : EReal := x * Ideal.logistic x

/-- The number both programs divide the summed messages by: the float 100.0, whose word this is. -/
abbrev hundred : EReal := Ideal.ofBits .f32 0x42C80000#32

/-- Two rows of 128 numbers side by side: a row of 256. -/
def sideBySide (a b : Fin 128 → EReal) (k : Fin 256) : EReal :=
  if hk : k.val < 128 then a ⟨k.val, hk⟩ else b ⟨k.val - 128, by have := k.isLt; omega⟩

/-- One affine layer with 128 outputs: x · W + b. -/
def layer {K : Nat} (x : Fin K → EReal) (w : Fin K → Fin 128 → EReal) (b : Fin 128 → EReal) (j : Fin 128) : EReal :=
  (∑ k : Fin K, x k * w k j) + b j

section Round

variable (h : Fin 10000 → Fin 128 → EReal) (src dst : Fin 640000 → Fin 10000)
  (ew1 : Fin 256 → Fin 128 → EReal) (eb1 : Fin 128 → EReal) (ew2 : Fin 128 → Fin 128 → EReal) (eb2 : Fin 128 → EReal)
  (nw1 : Fin 256 → Fin 128 → EReal) (nb1 : Fin 128 → EReal) (nw2 : Fin 128 → Fin 128 → EReal) (nb2 : Fin 128 → EReal)

/-- The hidden row of an edge: the first layer of the edge perceptron on the two endpoint rows, activated. -/
def edgeHidden (e : Fin 640000) (k : Fin 128) : EReal :=
  silu (layer (sideBySide (h (src e)) (h (dst e))) ew1 eb1 k)

/-- The message of an edge. -/
def msg (e : Fin 640000) (j : Fin 128) : EReal :=
  silu (layer (edgeHidden h src dst ew1 eb1 e) ew2 eb2 j)

/-- The sum of the messages of the edges leaving node n. -/
def msgSum (n : Fin 10000) (j : Fin 128) : EReal :=
  ∑ e : Fin 640000, if src e = n then msg h src dst ew1 eb1 ew2 eb2 e j else 0

/-- A node's aggregate: that sum divided by 100. -/
def agg (n : Fin 10000) (j : Fin 128) : EReal :=
  Ideal.div (msgSum h src dst ew1 eb1 ew2 eb2 n j) hundred

/-- The hidden row of a node: the first layer of the node perceptron on the old row and the aggregate, activated. -/
def nodeHidden (n : Fin 10000) (k : Fin 128) : EReal :=
  silu (layer (sideBySide (h n) (agg h src dst ew1 eb1 ew2 eb2 n)) nw1 nb1 k)

/-- The new row of a node. -/
def upd (n : Fin 10000) (j : Fin 128) : EReal :=
  h n j + layer (nodeHidden h src dst ew1 eb1 ew2 eb2 nw1 nb1 n) nw2 nb2 j

end Round

/-! ## The same over arrays -/

/-- A matrix as a function of its two coordinates. -/
abbrev cur2 {A B : Nat} (x : (⟨2, ![A, B]⟩ : Shape).Idx → EReal) (a : Fin A) (b : Fin B) : EReal := x (ix2 a b)

/-- A vector as a function of its coordinate. -/
abbrev cur1 {A : Nat} (x : (⟨1, ![A]⟩ : Shape).Idx → EReal) (a : Fin A) : EReal := x (ix1 a)

/-- Endpoint r (0 the source, 1 the target) of edge e in a 2 × 640000 table of 32-bit words, as a node. The word is read
    as a natural number; the remainder makes this a total function, and it is the word itself when the word is a node's
    number. -/
def nodeOf (ei : IVec ⟨2, ![2, 640000]⟩ 32) (r : Fin 2) (e : Fin 640000) : Fin 10000 :=
  ⟨(ei (ix2 r e)).toNat % 10000, Nat.mod_lt _ (by decide)⟩

/-- Every entry of the table is a node's number. -/
def InRange (ei : IVec ⟨2, ![2, 640000]⟩ 32) : Prop := ∀ (r : Fin 2) (e : Fin 640000), (ei (ix2 r e)).toNat < 10000

theorem nodeOf_val {ei : IVec ⟨2, ![2, 640000]⟩ 32} (hr : InRange ei) (r : Fin 2) (e : Fin 640000) :
    (nodeOf ei r e).val = (ei (ix2 r e)).toNat := Nat.mod_eq_of_lt (hr r e)

section Arrays

variable (h : (⟨2, ![10000, 128]⟩ : Shape).Idx → EReal) (ei : IVec ⟨2, ![2, 640000]⟩ 32)
  (ew1 : (⟨2, ![256, 128]⟩ : Shape).Idx → EReal) (eb1 : (⟨1, ![128]⟩ : Shape).Idx → EReal)
  (ew2 : (⟨2, ![128, 128]⟩ : Shape).Idx → EReal) (eb2 : (⟨1, ![128]⟩ : Shape).Idx → EReal)
  (nw1 : (⟨2, ![256, 128]⟩ : Shape).Idx → EReal) (nb1 : (⟨1, ![128]⟩ : Shape).Idx → EReal)
  (nw2 : (⟨2, ![128, 128]⟩ : Shape).Idx → EReal) (nb2 : (⟨1, ![128]⟩ : Shape).Idx → EReal)

/-- The 640000 × 128 array of messages. -/
def msgOf : (⟨2, ![640000, 128]⟩ : Shape).Idx → EReal := fun i =>
  msg (cur2 h) (nodeOf ei 0) (nodeOf ei 1) (cur2 ew1) (cur1 eb1) (cur2 ew2) (cur1 eb2)
    ⟨(i 0).val, idx2_lt0 i⟩ ⟨(i 1).val, idx2_lt1 i⟩

/-- The 10000 × 128 array of new rows. -/
def updOf : (⟨2, ![10000, 128]⟩ : Shape).Idx → EReal := fun i =>
  upd (cur2 h) (nodeOf ei 0) (nodeOf ei 1) (cur2 ew1) (cur1 eb1) (cur2 ew2) (cur1 eb2) (cur2 nw1) (cur1 nb1) (cur2 nw2) (cur1 nb2)
    ⟨(i 0).val, idx2_lt0 i⟩ ⟨(i 1).val, idx2_lt1 i⟩

theorem msgOf_ix2 (e : Fin 640000) (j : Fin 128) :
    msgOf h ei ew1 eb1 ew2 eb2 (ix2 e j)
      = msg (cur2 h) (nodeOf ei 0) (nodeOf ei 1) (cur2 ew1) (cur1 eb1) (cur2 ew2) (cur1 eb2) e j := rfl

theorem updOf_ix2 (n : Fin 10000) (j : Fin 128) :
    updOf h ei ew1 eb1 ew2 eb2 nw1 nb1 nw2 nb2 (ix2 n j)
      = upd (cur2 h) (nodeOf ei 0) (nodeOf ei 1) (cur2 ew1) (cur1 eb1) (cur2 ew2) (cur1 eb2) (cur2 nw1) (cur1 nb1) (cur2 nw2) (cur1 nb2) n j := rfl

end Arrays

end Cert.Gcl

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.EdgeMath.lean ====
/-
  The arithmetic of one step of the edge kernel, at the extended reals, read at an index.

  A step sees 128 edges: a row of 128 source words, a row of 128 target words, the padded node table (10112 rows, of which
  the last 112 are zero), and the edge perceptron's weights. It builds, for the 256 endpoints, the matrix whose row is 1 at
  the endpoint's node and 0 elsewhere, and multiplies it with the table: a sum over the 10112 nodes in which one term
  survives, the endpoint's row. So the step's 128 × 128 message block is the perceptron of the two looked-up rows
  (`msg_block`). The same 0/1 matrix, restricted to the sources and contracted over the EDGES instead of the nodes, adds
  to row n of the running aggregate the messages of the step's edges whose source is n (`agg_step`); the run starts from
  the zero array (`agg_zero`).
-/
import proofs.«429792_j52192442581787_3_alg».proof.Proof.Gen.KernelIdeal.Skeleton
import proofs.«429792_j52192442581787_3_alg».proof.Proof.Spec
import proofs.«429792_j52192442581787_3_alg».proof.Proof.LibMatProduct
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EdgeMath

open Cert.KernelIdeal Cert.KernelIdeal.Gen Cert.Gcl Idealize.ShloMosaic Idealize.ShloMosaic.ValueIdx

/-- Word p of a row of 128 words, as a natural number. -/
abbrev lane (x : Vec Ideal S1x128 .i32) (p : Fin 128) : ℕ := (x (ix2 (0 : Fin 1) p)).toNat

/-! ## The 0/1 matrix of endpoint words against node numbers -/

/-- The conversion of a comparison bit: 1 where the words agree, 0 elsewhere. -/
private theorem bit_toReal (a b : BitVec 32) :
    (FloatOps.sitofp (F := Ideal) .f32 ((IntOp.cmpi .eq a b).setWidth 32) : EReal) = if a = b then 1 else 0 := by
  by_cases h : a = b
  · subst h
    rw [if_pos rfl]
    show (((((IntOp.cmpi .eq a a).setWidth 32).toInt : ℝ)) : EReal) = 1
    simp [IntOp.cmpi]
  · rw [if_neg h]
    have hb : (a == b) = false := by simpa using h
    show (((((IntOp.cmpi .eq a b).setWidth 32).toInt : ℝ)) : EReal) = 0
    simp [IntOp.cmpi, hb]

/-- Word r of the two rows of 128 words laid end to end. -/
private def endWord (x0 x1 : Vec Ideal S1x128 .i32) (r : Fin 256) : BitVec 32 :=
  if h : r.val < 128 then x0 (ix2 (0 : Fin 1) ⟨r.val, h⟩) else x1 (ix2 (0 : Fin 1) ⟨r.val - 128, by have := r.isLt; omega⟩)

/-- The matrix of endpoint words against node numbers, read at (r, n): word r of the two rows laid end to end. -/
private theorem words_apply (x0 x1 : Vec Ideal S1x128 .i32) (r : Fin 256) (n : Fin 10112) :
    broadcastTo S256x10112 (shapeCast S256x1 (concatenate S1x256 1 [⟨S1x128, shapeCast S1x128 x0 Gen.shapeCasts_S1x128_S1x128⟩, ⟨S1x128, shapeCast S1x128 x1 Gen.shapeCasts_S1x128_S1x128⟩] Gen.concatenates_S1x128_S1x128_S1x256_d1) Gen.shapeCasts_S1x256_S256x1) Gen.broadcasts_S256x1_S256x10112 (ix2 r n)
      = endWord x0 x1 r := by
  rw [shapeCast_self, shapeCast_self]
  refine (broadcastTo_apply _ _ (ix2 r n) (ix2 r (0 : Fin 1)) fun a => ?_).trans ?_
  · match a with
    | ⟨0, _⟩ => show r.val = if (256 : Nat) = 1 then 0 else r.val; rw [if_neg (by decide)]
    | ⟨1, _⟩ => rfl
  refine (shapeCast_apply _ _ (ix2 r (0 : Fin 1)) (ix2 (0 : Fin 1) r) ?_).trans ?_
  · rw [Shape.rowMajor_val_two, Shape.rowMajor_val_two]
    show 0 * 256 + r.val = r.val * 1 + 0
    omega
  unfold endWord
  split
  · next h =>
    exact concatenate_pair_apply_left (1 : Fin 2) x0 x1 _ (ix2 (0 : Fin 1) r) rfl (ix2 (0 : Fin 1) ⟨r.val, h⟩) fun b => by
      match b with
      | ⟨0, _⟩ => rfl
      | ⟨1, _⟩ => rfl
  · next h =>
    exact concatenate_pair_apply_right (1 : Fin 2) x0 x1 _ (ix2 (0 : Fin 1) r) rfl rfl (ix2 (0 : Fin 1) ⟨r.val - 128, by have := r.isLt; omega⟩)
      (fun b hb => by
        match b with
        | ⟨0, _⟩ => rfl
        | ⟨1, _⟩ => exact absurd rfl hb)
      (by show r.val - 128 + 128 = r.val; omega)

/-- The 0/1 matrix at (r, n): 1 when word r is the number n, else 0. -/
private theorem pay4_apply (x0 x1 : Vec Ideal S1x128 .i32) (r : Fin 256) (n : Fin 10112) :
    k0_pay4 (F := Ideal) x0 x1 (ix2 r n) = if endWord x0 x1 r = BitVec.ofNat 32 n.val then 1 else 0 := by
  unfold k0_pay4
  show (FloatOps.sitofp (F := Ideal) .f32 ((IntOp.cmpi .eq
      (broadcastTo S256x10112 (shapeCast S256x1 (concatenate S1x256 1 [⟨S1x128, shapeCast S1x128 x0 _⟩, ⟨S1x128, shapeCast S1x128 x1 _⟩] _) _) _ (ix2 r n))
      (iota .tc S256x10112 32 [1] _ (ix2 r n))).setWidth 32) : EReal) = _
  rw [bit_toReal, iota_single_apply, words_apply]

/-- A 32-bit word is the number n < 10112 exactly when its value is n. -/
private theorem word_eq_iff (w : BitVec 32) (n : Fin 10112) : w = BitVec.ofNat 32 n.val ↔ w.toNat = n.val := by
  have hn : n.val % 2 ^ 32 = n.val := Nat.mod_eq_of_lt (by have := n.isLt; omega)
  constructor
  · intro h; rw [h, BitVec.toNat_ofNat, hn]
  · intro h; apply BitVec.eq_of_toNat_eq; rw [BitVec.toNat_ofNat, hn, h]

/-- A sum against a row of the 0/1 matrix keeps the one term at the word's number. -/
private theorem sum_onehot (w : BitVec 32) (hw : w.toNat < 10112) (f : Fin 10112 → EReal) :
    (∑ n : Fin 10112, (if w = BitVec.ofNat 32 n.val then (1 : EReal) else 0) * f n) = f ⟨w.toNat, hw⟩ := by
  rw [Finset.sum_eq_single (⟨w.toNat, hw⟩ : Fin 10112)]
  · rw [if_pos ((word_eq_iff w ⟨w.toNat, hw⟩).mpr rfl), one_mul]
  · intro n _ hne
    rw [if_neg (fun h => hne (Fin.ext ((word_eq_iff w n).mp h).symm)), zero_mul]
  · intro h; exact absurd (Finset.mem_univ _) h

private theorem endWord_lo (x0 x1 : Vec Ideal S1x128 .i32) (p : Fin 128) (hp : 0 + p.val < 256) :
    endWord x0 x1 ⟨0 + p.val, hp⟩ = x0 (ix2 (0 : Fin 1) p) := by
  unfold endWord
  rw [dif_pos (show (0 + p.val) < 128 by have := p.isLt; omega)]
  congr 2; exact Fin.ext (Nat.zero_add _)

private theorem endWord_hi (x0 x1 : Vec Ideal S1x128 .i32) (p : Fin 128) (hp : 128 + p.val < 256) :
    endWord x0 x1 ⟨128 + p.val, hp⟩ = x1 (ix2 (0 : Fin 1) p) := by
  unfold endWord
  rw [dif_neg (show ¬ (128 + p.val) < 128 by omega)]
  congr 2; exact Fin.ext (by show 128 + p.val - 128 = p.val; omega)

/-! ## The looked-up rows and the edge perceptron -/

/-- The 256 looked-up rows: the 0/1 matrix times the table. -/
private def rows (x0 x1 : Vec Ideal S1x128 .i32) (x2 : Vec Ideal S10112x128 .bf16) : FVec Ideal S256x128 .f32 :=
  matmul dot_S256x10112_S10112x128_S256x128_1_0_0_1_n_n none (k0_pay4 x0 x1)
    (shapeCast S10112x128 x2 Gen.shapeCasts_S10112x128_S10112x128 : FVec Ideal S10112x128 .bf16) (constant S256x128 .f32 0x00000000#32)

/-- Row r of the product is the table's row at word r's number. -/
private theorem rows_apply (x0 x1 : Vec Ideal S1x128 .i32) (x2 : Vec Ideal S10112x128 .bf16) (r : Fin 256) (c : Fin 128)
    (hw : (endWord x0 x1 r).toNat < 10112) :
    rows x0 x1 x2 (ix2 r c) = x2 (ix2 (⟨(endWord x0 x1 r).toNat, hw⟩ : Fin 10112) c) := by
  unfold rows
  rw [shapeCast_self]
  show matmul (φ₁ := .bf16) (φ₂ := .bf16) (DotDims.plain 256 10112 128) none (k0_pay4 x0 x1) x2 (constant ⟨2, ![256, 128]⟩ .f32 0x00000000#32) (ix2 r c) = _
  rw [Cert.Lib.MatProduct.matmul_plain_zero_eq, Cert.Lib.MatProduct.matProd_ix2]
  rw [Finset.sum_congr rfl fun n _ => by rw [pay4_apply]]
  exact sum_onehot (endWord x0 x1 r) hw fun n => x2 (ix2 n c)

/-- The source rows and the target rows of the step's 128 edges laid side by side. -/
private def side (x0 x1 : Vec Ideal S1x128 .i32) (x2 : Vec Ideal S10112x128 .bf16) : FVec Ideal S128x256 .f32 :=
  concatenate S128x256 1 [⟨S128x128, extractStridedSlice S128x128 ![0, 0] (rows x0 x1 x2) Gen.slices_S256x128_o0_0_S128x128⟩,
    ⟨S128x128, extractStridedSlice S128x128 ![128, 0] (rows x0 x1 x2) Gen.slices_S256x128_o128_0_S128x128⟩]
    Gen.concatenates_S128x128_S128x128_S128x256_d1

private theorem side_apply (x0 x1 : Vec Ideal S1x128 .i32) (x2 : Vec Ideal S10112x128 .bf16) (p : Fin 128) (c : Fin 256)
    (h0 : lane x0 p < 10112) (h1 : lane x1 p < 10112) :
    side x0 x1 x2 (ix2 p c)
      = sideBySide (fun k' => x2 (ix2 (⟨lane x0 p, h0⟩ : Fin 10112) k')) (fun k' => x2 (ix2 (⟨lane x1 p, h1⟩ : Fin 10112) k')) c := by
  unfold side sideBySide
  split
  · next h =>
    refine (concatenate_pair_apply_left (t := S128x256) (s₁ := S128x128) (s₂ := S128x128) (1 : Fin 2) _ _ _ (ix2 p c) rfl (ix2 p (⟨c.val, h⟩ : Fin 128)) fun b => by
      match b with
      | ⟨0, _⟩ => rfl
      | ⟨1, _⟩ => rfl).trans ?_
    rw [slice2_axis0_eq]
    have hw : (endWord x0 x1 ⟨0 + p.val, by have := p.isLt; omega⟩).toNat < 10112 := by rw [endWord_lo]; exact h0
    rw [rows_apply x0 x1 x2 _ _ hw]
    congr 2; exact Fin.ext (by show (endWord x0 x1 _).toNat = _; rw [endWord_lo])
  · next h =>
    refine (concatenate_pair_apply_right (t := S128x256) (s₁ := S128x128) (s₂ := S128x128) (1 : Fin 2) _ _ _ (ix2 p c) rfl rfl (ix2 p (⟨c.val - 128, by have := c.isLt; omega⟩ : Fin 128))
      (fun b hb => by
        match b with
        | ⟨0, _⟩ => rfl
        | ⟨1, _⟩ => exact absurd rfl hb)
      (by show c.val - 128 + 128 = c.val; omega)).trans ?_
    rw [slice2_axis0_eq]
    have hw : (endWord x0 x1 ⟨128 + p.val, by have := p.isLt; omega⟩).toNat < 10112 := by rw [endWord_hi]; exact h1
    rw [rows_apply x0 x1 x2 _ _ hw]
    congr 2; exact Fin.ext (by show (endWord x0 x1 _).toNat = _; rw [endWord_hi])

/-- A bias row broadcast over the block's rows, read at (p, q). -/
private theorem bias_apply (b : Vec Ideal S128 .f32) (p q : Fin 128) :
    broadcastTo S128x128 (shapeCast S1x128 b Gen.shapeCasts_S128_S1x128) Gen.broadcasts_S1x128_S128x128 (ix2 p q) = cur1 b q := by
  rw [broadcastTo_1b_ab_apply, shapeCast_a_1a_apply]

/-- The first layer of the edge perceptron on the side-by-side rows, before the activation. -/
private def hid (x0 x1 : Vec Ideal S1x128 .i32) (x2 : Vec Ideal S10112x128 .bf16) (x3 : Vec Ideal S256x128 .bf16)
    (x4 : Vec Ideal S128 .f32) : FVec Ideal S128x128 .f32 :=
  addf (matmul dot_S128x256_S256x128_S128x128_1_0_0_1_n_n none
      (truncf .bf16 (side x0 x1 x2) Gen.bitsLt_bf16_f32 : FVec Ideal S128x256 .bf16)
      (shapeCast S256x128 x3 Gen.shapeCasts_S256x128_S256x128 : FVec Ideal S256x128 .bf16) (constant S128x128 .f32 0x00000000#32))
    (broadcastTo S128x128 (shapeCast S1x128 x4 Gen.shapeCasts_S128_S1x128) Gen.broadcasts_S1x128_S128x128)

private theorem hid_apply (x0 x1 : Vec Ideal S1x128 .i32) (x2 : Vec Ideal S10112x128 .bf16) (x3 : Vec Ideal S256x128 .bf16)
    (x4 : Vec Ideal S128 .f32) (p k : Fin 128) (h0 : lane x0 p < 10112) (h1 : lane x1 p < 10112) :
    hid x0 x1 x2 x3 x4 (ix2 p k)
      = layer (sideBySide (fun k' => x2 (ix2 (⟨lane x0 p, h0⟩ : Fin 10112) k')) (fun k' => x2 (ix2 (⟨lane x1 p, h1⟩ : Fin 10112) k')))
          (cur2 x3) (cur1 x4) k := by
  unfold hid layer
  rw [addf_apply, bias_apply, shapeCast_self]
  congr 1
  show matmul (φ₁ := .bf16) (φ₂ := .bf16) (DotDims.plain 128 256 128) none
    (truncf .bf16 (side x0 x1 x2) Gen.bitsLt_bf16_f32 : FVec Ideal S128x256 .bf16) x3 (constant ⟨2, ![128, 128]⟩ .f32 0x00000000#32) (ix2 p k) = _
  rw [Cert.Lib.MatProduct.matmul_plain_zero_eq, Cert.Lib.MatProduct.matProd_ix2]
  exact Finset.sum_congr rfl fun c _ => by rw [truncf_apply, side_apply x0 x1 x2 p c h0 h1]

/-- The second layer's sum plus its bias, as the step computes it. -/
private theorem pay5_eq (x0 x1 : Vec Ideal S1x128 .i32) (x2 : Vec Ideal S10112x128 .bf16) (x3 : Vec Ideal S256x128 .bf16)
    (x4 : Vec Ideal S128 .f32) (x5 : Vec Ideal S128x128 .bf16) (x6 : Vec Ideal S128 .f32) :
    k0_pay5 x0 x1 x2 x3 x4 x5 x6
      = addf (matmul dot_S128x128_S128x128_S128x128_1_0_0_1_n_n none
          (truncf .bf16 (mulf (hid x0 x1 x2 x3 x4) (logistic (hid x0 x1 x2 x3 x4))) Gen.bitsLt_bf16_f32 : FVec Ideal S128x128 .bf16)
          (shapeCast S128x128 x5 Gen.shapeCasts_S128x128_S128x128 : FVec Ideal S128x128 .bf16) (constant S128x128 .f32 0x00000000#32))
        (broadcastTo S128x128 (shapeCast S1x128 x6 Gen.shapeCasts_S128_S1x128) Gen.broadcasts_S1x128_S128x128) := rfl

private theorem pay5_apply (x0 x1 : Vec Ideal S1x128 .i32) (x2 : Vec Ideal S10112x128 .bf16) (x3 : Vec Ideal S256x128 .bf16)
    (x4 : Vec Ideal S128 .f32) (x5 : Vec Ideal S128x128 .bf16) (x6 : Vec Ideal S128 .f32) (p q : Fin 128)
    (h0 : lane x0 p < 10112) (h1 : lane x1 p < 10112) :
    k0_pay5 x0 x1 x2 x3 x4 x5 x6 (ix2 p q)
      = layer (fun k => silu (layer
          (sideBySide (fun k' => x2 (ix2 (⟨lane x0 p, h0⟩ : Fin 10112) k')) (fun k' => x2 (ix2 (⟨lane x1 p, h1⟩ : Fin 10112) k')))
          (cur2 x3) (cur1 x4) k)) (cur2 x5) (cur1 x6) q := by
  rw [pay5_eq, addf_apply, bias_apply, shapeCast_self]
  unfold layer
  congr 1
  show matmul (φ₁ := .bf16) (φ₂ := .bf16) (DotDims.plain 128 128 128) none
    (truncf .bf16 (mulf (hid x0 x1 x2 x3 x4) (logistic (hid x0 x1 x2 x3 x4))) Gen.bitsLt_bf16_f32 : FVec Ideal S128x128 .bf16) x5
    (constant ⟨2, ![128, 128]⟩ .f32 0x00000000#32) (ix2 p q) = _
  rw [Cert.Lib.MatProduct.matmul_plain_zero_eq, Cert.Lib.MatProduct.matProd_ix2]
  refine Finset.sum_congr rfl fun k _ => ?_
  rw [truncf_apply, mulf_apply]
  show hid x0 x1 x2 x3 x4 (ix2 p k) * Ideal.logistic (hid x0 x1 x2 x3 x4 (ix2 p k)) * _ = _
  rw [hid_apply x0 x1 x2 x3 x4 p k h0 h1]
  rfl

/-- The message block of a step: entry (p, q) is the edge perceptron of rows `lane x0 p` and `lane x1 p` of the table,
    when both are rows of the table. -/
theorem msg_block (x0 x1 : Vec Ideal S1x128 .i32) (x2 : Vec Ideal S10112x128 .bf16) (x3 : Vec Ideal S256x128 .bf16)
    (x4 : Vec Ideal S128 .f32) (x5 : Vec Ideal S128x128 .bf16) (x6 : Vec Ideal S128 .f32) (p q : Fin 128)
    (h0 : lane x0 p < 10112) (h1 : lane x1 p < 10112) :
    k0_pay1 (k0_pay5 x0 x1 x2 x3 x4 x5 x6) (k0_pay6 x0 x1 x2 x3 x4 x5 x6) (ix2 p q)
      = silu (layer (fun k => silu (layer
          (sideBySide (fun k' => x2 (ix2 (⟨lane x0 p, h0⟩ : Fin 10112) k')) (fun k' => x2 (ix2 (⟨lane x1 p, h1⟩ : Fin 10112) k')))
          (cur2 x3) (cur1 x4) k)) (cur2 x5) (cur1 x6) q) := by
  show k0_pay5 x0 x1 x2 x3 x4 x5 x6 (ix2 p q) * Ideal.logistic (k0_pay5 x0 x1 x2 x3 x4 x5 x6 (ix2 p q)) = _
  rw [pay5_apply x0 x1 x2 x3 x4 x5 x6 p q h0 h1]
  rfl

/-! ## The aggregate -/

/-! The product that contracts over the step's edges: the operands' indices at output index (n, j) and edge p. -/

private theorem dotT_lhs0 (i : S10112x128.Idx) (q : dot_S128x10112_S128x128_S10112x128_0_0_1_1_n_n.contr.Idx) :
    (dot_S128x10112_S128x128_S10112x128_0_0_1_1_n_n.lhsIdx i q 0).val = (q ⟨0, by decide⟩).val :=
  dot_S128x10112_S128x128_S10112x128_0_0_1_1_n_n.lhsIdx_val_of_single rfl i q

private theorem dotT_lhs1 (i : S10112x128.Idx) (q : dot_S128x10112_S128x128_S10112x128_0_0_1_1_n_n.contr.Idx) :
    (dot_S128x10112_S128x128_S10112x128_0_0_1_1_n_n.lhsIdx i q 1).val = (i 0).val := by
  unfold DotDims.lhsIdx
  rw [dif_neg (show ¬(1 : Fin S128x10112.rank) ∈ dot_S128x10112_S128x128_S10112x128_0_0_1_1_n_n.lhsBatch by decide),
    dif_pos (show (1 : Fin S128x10112.rank) ∈ dot_S128x10112_S128x128_S10112x128_0_0_1_1_n_n.lhsNonContracting by decide)]
  rfl

private theorem dotT_rhs0 (i : S10112x128.Idx) (q : dot_S128x10112_S128x128_S10112x128_0_0_1_1_n_n.contr.Idx) :
    (dot_S128x10112_S128x128_S10112x128_0_0_1_1_n_n.rhsIdx i q 0).val = (q ⟨0, by decide⟩).val :=
  dot_S128x10112_S128x128_S10112x128_0_0_1_1_n_n.rhsIdx_val_of_single rfl i q

private theorem dotT_rhs1 (i : S10112x128.Idx) (q : dot_S128x10112_S128x128_S10112x128_0_0_1_1_n_n.contr.Idx) :
    (dot_S128x10112_S128x128_S10112x128_0_0_1_1_n_n.rhsIdx i q 1).val = (i 1).val := by
  unfold DotDims.rhsIdx
  rw [dif_neg (show ¬(1 : Fin S128x128.rank) ∈ dot_S128x10112_S128x128_S10112x128_0_0_1_1_n_n.rhsBatch by decide),
    dif_pos (show (1 : Fin S128x128.rank) ∈ dot_S128x10112_S128x128_S10112x128_0_0_1_1_n_n.rhsNonContracting by decide)]
  rfl

/-- That product into the zero array, read at (n, j): the sum over the edges p of l[p, n] r[p, j]. -/
private theorem dotT_apply (l : FVec Ideal S128x10112 .bf16) (r : FVec Ideal S128x128 .bf16) (n : Fin 10112) (j : Fin 128) :
    matmul dot_S128x10112_S128x128_S10112x128_0_0_1_1_n_n none l r (constant S10112x128 .f32 0x00000000#32) (ix2 n j)
      = ∑ p : Fin 128, l (ix2 p n) * r (ix2 p j) := by
  show FloatOps.matmul dot_S128x10112_S128x128_S10112x128_0_0_1_1_n_n none l r (constant S10112x128 .f32 0x00000000#32) (ix2 n j) = _
  rw [Ideal.matmul_constant_zero_apply,
    ← Equiv.sum_comp (contrEquiv1 dot_S128x10112_S128x128_S10112x128_0_0_1_1_n_n 128 rfl rfl).symm]
  refine Finset.sum_congr rfl fun p _ => ?_
  have hp := contrEquiv1_symm_val dot_S128x10112_S128x128_S10112x128_0_0_1_1_n_n 128 rfl rfl p
  have el : dot_S128x10112_S128x128_S10112x128_0_0_1_1_n_n.lhsIdx (ix2 n j)
      ((contrEquiv1 dot_S128x10112_S128x128_S10112x128_0_0_1_1_n_n 128 rfl rfl).symm p) = ix2 p n :=
    funext fun a => Fin.ext (by
      match a with
      | ⟨0, _⟩ => exact (dotT_lhs0 _ _).trans hp
      | ⟨1, _⟩ => exact dotT_lhs1 _ _)
  have er : dot_S128x10112_S128x128_S10112x128_0_0_1_1_n_n.rhsIdx (ix2 n j)
      ((contrEquiv1 dot_S128x10112_S128x128_S10112x128_0_0_1_1_n_n 128 rfl rfl).symm p) = ix2 p j :=
    funext fun a => Fin.ext (by
      match a with
      | ⟨0, _⟩ => exact (dotT_rhs0 _ _).trans hp
      | ⟨1, _⟩ => exact dotT_rhs1 _ _)
  rw [el, er]

/-- One step of the aggregate: row n gains the messages of the step's edges whose source word is n. -/
theorem agg_step (x0 x1 : Vec Ideal S1x128 .i32) (v38 v39 : FVec Ideal S128x128 .f32) (acc : Vec Ideal S1x10112x128 .f32)
    (n : Fin 10112) (j : Fin 128) :
    k0_pay2 (k0_pay4 x0 x1) v38 v39 acc (ix3 (0 : Fin 1) n j)
      = acc (ix3 (0 : Fin 1) n j) + ∑ p : Fin 128, if lane x0 p = n.val then k0_pay1 v38 v39 (ix2 p j) else 0 := by
  unfold k0_pay2
  show shapeCast S1x10112x128 (addf (shapeCast S10112x128 acc _)
      (matmul dot_S128x10112_S128x128_S10112x128_0_0_1_1_n_n none
        (extractStridedSlice S128x10112 ![0, 0] (k0_pay4 x0 x1) _ : FVec Ideal S128x10112 .bf16)
        (truncf .bf16 (k0_pay1 v38 v39) _ : FVec Ideal S128x128 .bf16) (constant S10112x128 .f32 0x00000000#32))) _ (ix3 (0 : Fin 1) n j) = _
  rw [shapeCast_ab_1ab_apply, addf_apply, shapeCast_1ab_ab_apply, dotT_apply]
  congr 1
  refine Finset.sum_congr rfl fun p _ => ?_
  rw [slice2_axis0_eq, pay4_apply, endWord_lo, truncf_apply]
  by_cases h : lane x0 p = n.val
  · rw [if_pos h, if_pos ((word_eq_iff _ n).mpr h), one_mul]
  · rw [if_neg h, if_neg (fun h' => h ((word_eq_iff _ n).mp h')), zero_mul]

/-- The array a run of steps starts from is zero everywhere. -/
theorem agg_zero (i : S1x10112x128.Idx) : k0_pay3 (F := Ideal) i = 0 := by
  show Ideal.ofBits .f32 0x00000000#32 = 0
  exact Ideal.ofBits_zero_f32

end Cert.KernelIdeal.EdgeMath

end
-- ==== Proof.EdgeValue.lean ====
/-
  The edge kernel's two results as whole arrays, over the extended reals.

  With the step's arithmetic read at an index, entry (p, q) of step t's block is the message of edge 128 t + p
  (`msgAt_apply`), a step adds to row n of its core's aggregate the messages of its edges whose source word is n
  (`aggStepAt_apply`), and a run of 2500 such steps from zero is the sum of the steps' additions (`aggFold_apply`). Step
  t writes back rows 128 t … 128 t + 127 of the first result, and these blocks tile it (`final_msg`); the last step of a
  core's run writes back that core's slab of the second result (`final_agg`). The arrays the region finds are a
  parameter: what they are in terms of the program's arguments is the host side's business.
-/
import proofs.«429792_j52192442581787_3_alg».proof.Proof.EdgeRegion
import proofs.«429792_j52192442581787_3_alg».proof.Proof.EdgeMath
import proofs.«429792_j52192442581787_3_alg».proof.Proof.Spec

set_option maxRecDepth 16384

noncomputable section

open scoped BigOperators

namespace Cert.KernelIdeal.Edge

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

section Value

open Cert.Gcl Cert.KernelIdeal.EdgeMath

variable (V : (c : Dev nD) → (b : Ref sig .tc) → Buf (Elt Ideal) ((c : Thread nD τ).loc b)) (c : Dev nD)

/-- The source and target words of edge e, as the region finds them. -/
abbrev srcW (e : Fin 640000) : BitVec 32 := srcArr V c (ix2 (0 : Fin 1) e)
abbrev dstW (e : Fin 640000) : BitVec 32 := dstArr V c (ix2 (0 : Fin 1) e)

/-- Row n of the padded table (zero past its end, where no word the kernel meets points). -/
def tblRow (n : ℕ) (k : Fin 128) : EReal := if h : n < 10112 then tblArr V c (ix2 (⟨n, h⟩ : Fin 10112) k) else 0

theorem tblRow_eq (n : ℕ) (h : n < 10112) : tblRow V c n = fun k => tblArr V c (ix2 (⟨n, h⟩ : Fin 10112) k) := by
  funext k; unfold tblRow; rw [dif_pos h]

/-- The message of edge e as the kernel computes it from those arrays. -/
def kmsg (e : Fin 640000) (q : Fin 128) : EReal :=
  silu (layer (fun k => silu (layer (sideBySide (tblRow V c (srcW V c e).toNat) (tblRow V c (dstW V c e).toNat))
    (cur2 (ew1Arr V c)) (cur1 (eb1Arr V c)) k)) (cur2 (ew2Arr V c)) (cur1 (eb2Arr V c)) q)

/-- Both endpoint words of every edge are rows of the padded table. -/
def WordsInTable : Prop := ∀ e : Fin 640000, (srcW V c e).toNat < 10112 ∧ (dstW V c e).toNat < 10112

theorem lane_blk0 (t : Fin cfg0.N) (p : Fin 128) : lane (blk0 V c t) p = (srcW V c ⟨128 * t.val + p.val, edge_lt t p⟩).toNat :=
  congrArg BitVec.toNat (blk0_apply V c t p)

theorem lane_blk1 (t : Fin cfg0.N) (p : Fin 128) : lane (blk1 V c t) p = (dstW V c ⟨128 * t.val + p.val, edge_lt t p⟩).toNat :=
  congrArg BitVec.toNat (blk1_apply V c t p)

/-- Entry (p, q) of step t's message block is the message of edge 128 t + p. -/
theorem msgAt_apply (hw : WordsInTable V c) (t : Fin cfg0.N) (p q : Fin 128) :
    msgAt V c t (ix2 p q) = kmsg V c ⟨128 * t.val + p.val, edge_lt t p⟩ q := by
  have h0 : lane (blk0 V c t) p < 10112 := by rw [lane_blk0]; exact (hw _).1
  have h1 : lane (blk1 V c t) p < 10112 := by rw [lane_blk1]; exact (hw _).2
  refine (msg_block (blk0 V c t) (blk1 V c t) (blk2 V c t) (blk3 V c t) (blk4 V c t) (blk5 V c t) (blk6 V c t) p q h0 h1).trans ?_
  unfold kmsg
  rw [tblRow_eq V c _ (hw _).1, tblRow_eq V c _ (hw _).2, blk2_eq, blk3_eq, blk4_eq, blk5_eq, blk6_eq]
  simp only [lane_blk0, lane_blk1]

end Value

section Aggregate

open Cert.Gcl Cert.KernelIdeal.EdgeMath

variable (V : (c : Dev nD) → (b : Ref sig .tc) → Buf (Elt Ideal) ((c : Thread nD τ).loc b)) (c : Dev nD)

theorem step_edge_lt (s : ℕ) (hs : s < cfg0.N) (p : Fin 128) : 128 * s + p.val < 640000 :=
  edge_lt ⟨s, hs⟩ p

/-- What step s adds to entry i of a core's aggregate: the messages of the step's edges whose source word is i's row.
    (Zero for a number that is no step, so that the quantity is defined for every natural.) -/
def stepAdd (s : ℕ) (i : S1x10112x128.Idx) : EReal :=
  if hs : s < cfg0.N then
    ∑ p : Fin 128, if (srcW V c ⟨128 * s + p.val, step_edge_lt s hs p⟩).toNat = (i 1).val
      then kmsg V c ⟨128 * s + p.val, step_edge_lt s hs p⟩ ⟨(i 2).val, (i 2).isLt⟩ else 0
  else 0

/-- One step on an aggregate, read at an entry. -/
theorem aggStepAt_apply (hw : WordsInTable V c) (t : Fin cfg0.N) (acc : Vec Ideal S1x10112x128 .f32) (i : S1x10112x128.Idx) :
    aggStepAt V c t acc i = acc i + stepAdd V c t.val i := by
  obtain ⟨z, n, j, rfl⟩ : ∃ (z : Fin 1) (n : Fin 10112) (j : Fin 128), i = ix3 z n j := ⟨i 0, i 1, i 2, eq_ix3 i⟩
  obtain rfl : z = 0 := Subsingleton.elim _ _
  refine (agg_step (blk0 V c t) (blk1 V c t) _ _ acc n j).trans ?_
  congr 1
  unfold stepAdd
  rw [dif_pos t.isLt]
  refine Finset.sum_congr rfl fun p _ => ?_
  rw [lane_blk0]
  exact if_congr Iff.rfl (msgAt_apply V c hw t p j) rfl

/-- After the last step of a core's run of 2500, entry i of the aggregate's buffer is the sum of what the run's steps add. -/
theorem aggFold_apply (hw : WordsInTable V c) (t : Fin cfg0.N) (ht : t.val % 2500 = 2499) (i : S1x10112x128.Idx) :
    (outsAt0 V c t.val t.isLt).2 i
      = 0 + ∑ s ∈ Finset.range 2500, stepAdd V c (2500 * (t.val / 2500) + s) i := by
  have h' : 2500 * (t.val / 2500) + t.val % 2500 < cfg0.N := by rw [Nat.div_add_mod]; exact t.isLt
  rw [outsAt_snd_fold V c t h']
  have key := Pipeline.accAt_add_apply (N := cfg0.N)
    (fun n h => aggStepAt V c ⟨n, h⟩ (k0_pay3 (F := Ideal))) (fun n h acc => aggStepAt V c ⟨n, h⟩ acc)
    (fun _ => (0 : EReal)) (stepAdd V c) (2500 * (t.val / 2500)) 2499
    (fun h i => by
      show aggStepAt V c ⟨_, h⟩ (k0_pay3 (F := Ideal)) i = 0 + stepAdd V c _ i
      rw [aggStepAt_apply V c hw, agg_zero])
    (fun n h acc i _ _ => aggStepAt_apply V c hw ⟨n, h⟩ acc i)
    (t.val % 2500) (by omega) h' i
  rw [key, ht]

end Aggregate

section Arrays

open Cert.Gcl Cert.KernelIdeal.EdgeMath

variable (V : (c : Dev nD) → (b : Ref sig .tc) → Buf (Elt Ideal) ((c : Thread nD τ).loc b)) (c : Dev nD)

/-- The whole array of messages. -/
def msgArr : S640000x128.Idx → EReal := fun i => kmsg V c ⟨(i 0).val, idx2_lt0 i⟩ ⟨(i 1).val, idx2_lt1 i⟩

/-- The two cores' aggregates: slab k is core k's sum over its 2500 steps, started from zero. -/
def aggArr : S2x10112x128.Idx → EReal := fun i =>
  0 + ∑ s ∈ Finset.range 2500, stepAdd V c (2500 * (i 0).val + s) (ix3 (0 : Fin 1) (⟨(i 1).val, (i 1).isLt⟩ : Fin 10112) (⟨(i 2).val, (i 2).isLt⟩ : Fin 128))

/-- Step t writes back rows 128 t … 128 t + 127 of the array of messages. -/
theorem flushed_msg (hw : WordsInTable V c) (t : Fin cfg0.N) :
    (dat0 V c).flushed 7 t = ((cfg0.win 7).blk t).view.read (Elt Ideal) (msgArr V c) := by
  obtain ⟨-, -, -, -, -, -, -, ⟨e0, e1⟩, -⟩ := edge_index t
  show (cfg0.win 7).cut (grid0.coords t) ((dat0 V c).after 7 t) = _
  rw [after0_7, outsAt_fst]
  funext y
  obtain ⟨p, q, rfl⟩ : ∃ (p q : Fin 128), y = ix2 p q := ⟨y 0, y 1, eq_ix2 y⟩
  rw [View.read_apply]
  show msgAt V c t (ix2 p q) = msgArr V c (((cfg0.win 7).blk t).view.emb (ix2 p q))
  rw [msgAt_apply V c hw]
  unfold msgArr
  congr 1
  · apply Fin.ext
    show 128 * t.val + p.val = win0_7.index t (0 : Fin 2) * 128 + 1 * p.val
    omega
  · apply Fin.ext
    show q.val = win0_7.index t (1 : Fin 2) * 128 + 1 * q.val
    omega

/-- Every row of the array of messages is some step's. -/
theorem cover_msg (i : S640000x128.Idx) :
    ∃ t : Fin cfg0.N, (cfg0.win 7).flush t = true ∧ i ∈ ((cfg0.win 7).blk t).view.set := by
  have hN : cfg0.N = 5000 := N_0
  have hi0 : (i 0).val < 640000 := idx2_lt0 i
  have hi1 : (i 1).val < 128 := idx2_lt1 i
  let t : Fin cfg0.N := ⟨(i 0).val / 128, by omega⟩
  obtain ⟨-, -, -, -, -, -, -, ⟨e0, e1⟩, -⟩ := edge_index t
  refine ⟨t, flush0_7 t, ?_⟩
  show i ∈ ((View.whole main_v14_0).slice (win0_7.rect t)).set
  rw [View.set_slice_whole, Rect.mem_set_unit]
  intro a
  have ht : t.val = (i 0).val / 128 := rfl
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 128 ≤ (i 1).val ∧ (i 1).val < win0_7.index t (1 : Fin 2) * 128 + 128; omega

/-- So the first result of the edge kernel ends holding the array of messages. -/
theorem final_msg (hw : WordsInTable V c) : (dat0 V c).arrAt 7 cfg0.N = msgArr V c :=
  (dat0 V c).arrAt_eq_of_cover 7 (msgArr V c) (fun t _ => flushed_msg V c hw t) cover_msg

/-- The last step of a core's run writes back the core's slab of the aggregates. -/
theorem flushed_agg (hw : WordsInTable V c) (t : Fin cfg0.N) (hf : (cfg0.win 8).flush t = true) :
    (dat0 V c).flushed 8 t = ((cfg0.win 8).blk t).view.read (Elt Ideal) (aggArr V c) := by
  have ht : t.val % 2500 = 2499 := (flush0_8 t).mp hf
  obtain ⟨-, -, -, -, -, -, -, -, ⟨e0, e1, e2⟩⟩ := edge_index t
  show (cfg0.win 8).cut (grid0.coords t) ((dat0 V c).after 8 t) = _
  rw [after0_8]
  funext y
  rw [View.read_apply]
  show (outsAt0 V c t.val t.isLt).2 y = aggArr V c (((cfg0.win 8).blk t).view.emb y)
  rw [aggFold_apply V c hw t ht]
  unfold aggArr
  have hy0 : (y 0).val = 0 := by have h : (y 0).val < 1 := (y 0).isLt; omega
  have c0 : ((((cfg0.win 8).blk t).view.emb y) 0).val = t.val / 2500 := by
    show win0_8.index t (0 : Fin 3) * 1 + 1 * (y 0).val = t.val / 2500; omega
  have c1 : ((((cfg0.win 8).blk t).view.emb y) 1).val = (y 1).val := by
    show win0_8.index t (1 : Fin 3) * 10112 + 1 * (y 1).val = (y 1).val; omega
  have c2 : ((((cfg0.win 8).blk t).view.emb y) 2).val = (y 2).val := by
    show win0_8.index t (2 : Fin 3) * 128 + 1 * (y 2).val = (y 2).val; omega
  have hy : y = ix3 (0 : Fin 1) (⟨(y 1).val, (y 1).isLt⟩ : Fin 10112) (⟨(y 2).val, (y 2).isLt⟩ : Fin 128) := by
    funext a; apply Fin.ext
    match a with
    | ⟨0, _⟩ => exact hy0
    | ⟨1, _⟩ => rfl
    | ⟨2, _⟩ => rfl
  congr 1
  refine Finset.sum_congr rfl fun s _ => ?_
  rw [c0]
  conv_lhs => rw [hy]
  congr 1
  funext a; apply Fin.ext
  match a with
  | ⟨0, _⟩ => rfl
  | ⟨1, _⟩ => exact c1.symm
  | ⟨2, _⟩ => exact c2.symm

/-- Every slab of the aggregates is written back by the last step of its core's run. -/
theorem cover_agg (i : S2x10112x128.Idx) :
    ∃ t : Fin cfg0.N, (cfg0.win 8).flush t = true ∧ i ∈ ((cfg0.win 8).blk t).view.set := by
  have hN : cfg0.N = 5000 := N_0
  have hi0 : (i 0).val < 2 := (i 0).isLt
  have hi1 : (i 1).val < 10112 := (i 1).isLt
  have hi2 : (i 2).val < 128 := (i 2).isLt
  let t : Fin cfg0.N := ⟨2500 * (i 0).val + 2499, by omega⟩
  have ht : t.val = 2500 * (i 0).val + 2499 := rfl
  obtain ⟨-, -, -, -, -, -, -, -, ⟨e0, e1, e2⟩⟩ := edge_index t
  refine ⟨t, (flush0_8 t).mpr (by omega), ?_⟩
  show i ∈ ((View.whole main_v14_1).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 10112 ≤ (i 1).val ∧ (i 1).val < win0_8.index t (1 : Fin 3) * 10112 + 10112; omega
  | ⟨2, _⟩ => show win0_8.index t (2 : Fin 3) * 128 ≤ (i 2).val ∧ (i 2).val < win0_8.index t (2 : Fin 3) * 128 + 128; omega

/-- So the second result of the edge kernel ends holding the two cores' aggregates. -/
theorem final_agg (hw : WordsInTable V c) : (dat0 V c).arrAt 8 cfg0.N = aggArr V c :=
  (dat0 V c).arrAt_eq_of_cover 8 (aggArr V c) (fun t hf => flushed_agg V c hw t hf) cover_agg

end Arrays

end Cert.KernelIdeal.Edge

end
-- ==== Proof.NodeMath.lean ====
/-
  The arithmetic of one step of the node kernel, at the extended reals, read at an index.

  A step sees 5000 nodes: their old rows, the two partial aggregates of those nodes (one per half of the edges), and the
  node perceptron's weights. The new row is the old row plus the perceptron of the old row and (first partial + second
  partial) / 100 side by side.
-/
import proofs.«429792_j52192442581787_3_alg».proof.Proof.Gen.KernelIdeal.Skeleton
import proofs.«429792_j52192442581787_3_alg».proof.Proof.Spec
import proofs.«429792_j52192442581787_3_alg».proof.Proof.LibMatProduct
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NodeMath

open Cert.KernelIdeal Cert.KernelIdeal.Gen Cert.Gcl Idealize.ShloMosaic Idealize.ShloMosaic.ValueIdx

/-- The two products' dimension records are the plain ones: rows by contraction, times contraction by columns. -/
private theorem dims_first : dot_S5000x256_S256x128_S5000x128_1_0_0_1_n_n = DotDims.plain 5000 256 128 := rfl
private theorem dims_second : dot_S5000x128_S128x128_S5000x128_1_0_0_1_n_n = DotDims.plain 5000 128 128 := rfl

/-- Two blocks of 128 columns laid side by side, read at row r: the two rows side by side. -/
private theorem cat_apply (x y : FVec Ideal S5000x128 .f32) (r : Fin 5000) (k : Fin 256) :
    concatenate S5000x256 1 [⟨S5000x128, x⟩, ⟨S5000x128, y⟩] concatenates_S5000x128_S5000x128_S5000x256_d1 (ix2 r k)
      = sideBySide (fun k' => x (ix2 r k')) (fun k' => y (ix2 r k')) k := by
  unfold sideBySide
  by_cases hk : k.val < 128
  · rw [dif_pos hk]
    exact concatenate_pair_apply_left (1 : Fin 2) x y _ (ix2 r k) rfl (ix2 r ⟨k.val, hk⟩)
      (fun b => match b with | ⟨0, _⟩ => rfl | ⟨1, _⟩ => rfl)
  · rw [dif_neg hk]
    exact concatenate_pair_apply_right (1 : Fin 2) x y _ (ix2 r k) rfl rfl (ix2 r ⟨k.val - 128, by have := k.isLt; omega⟩)
      (fun b hb => match b, hb with | ⟨0, _⟩, _ => rfl | ⟨1, _⟩, hb => absurd rfl hb)
      (by show (k.val - 128) + 128 = k.val; omega)

/-- A bias vector laid along every row, read at (r, j): its entry j. -/
private theorem bias_apply (b : FVec Ideal S128 .f32) (r : Fin 5000) (j : Fin 128) :
    broadcastTo S5000x128 (shapeCast S1x128 b shapeCasts_S128_S1x128) broadcasts_S1x128_S5000x128 (ix2 r j) = b (ix1 j) := by
  rw [broadcastTo_1b_ab_apply, shapeCast_a_1a_apply]

/-- The aggregate rows: the two partial sums added and divided by 100. -/
private def aggRows (v1 v3 : Vec Ideal S1x5000x128 .f32) : FVec Ideal S5000x128 .f32 :=
  divf (addf (shapeCast S5000x128 v1 shapeCasts_S1x5000x128_S5000x128) (shapeCast S5000x128 v3 shapeCasts_S1x5000x128_S5000x128))
    (broadcast S5000x128 (FloatOps.ofBits .f32 0x42C80000#32))

private theorem aggRows_apply (v1 v3 : Vec Ideal S1x5000x128 .f32) (r : Fin 5000) (k : Fin 128) :
    aggRows v1 v3 (ix2 r k) = Ideal.div (v1 (ix3 (0 : Fin 1) r k) + v3 (ix3 (0 : Fin 1) r k)) hundred := by
  unfold aggRows
  rw [divf_apply, addf_apply, shapeCast_1ab_ab_apply, shapeCast_1ab_ab_apply]
  rfl

/-- The first layer before its activation, for any second block a. -/
private def hiddenPre (v0 a : FVec Ideal S5000x128 .f32) (v10 : FVec Ideal S256x128 .bf16) (v12 : FVec Ideal S128 .f32) :
    FVec Ideal S5000x128 .f32 :=
  addf
    (matmul dot_S5000x256_S256x128_S5000x128_1_0_0_1_n_n none
      (truncf .bf16 (concatenate S5000x256 1 [⟨S5000x128, v0⟩, ⟨S5000x128, a⟩] concatenates_S5000x128_S5000x128_S5000x256_d1)
        bitsLt_bf16_f32)
      (shapeCast S256x128 v10 shapeCasts_S256x128_S256x128) (constant S5000x128 .f32 0x00000000#32))
    (broadcastTo S5000x128 (shapeCast S1x128 v12 shapeCasts_S128_S1x128) broadcasts_S1x128_S5000x128)

private theorem hiddenPre_apply (v0 a : FVec Ideal S5000x128 .f32) (v10 : FVec Ideal S256x128 .bf16) (v12 : FVec Ideal S128 .f32)
    (r : Fin 5000) (k : Fin 128) :
    hiddenPre v0 a v10 v12 (ix2 r k)
      = layer (sideBySide (fun k' => v0 (ix2 r k')) (fun k' => a (ix2 r k'))) (cur2 v10) (cur1 v12) k := by
  unfold hiddenPre layer
  rw [addf_apply, bias_apply, dims_first, shapeCast_self, Cert.Lib.MatProduct.matmul_plain_zero_eq, Cert.Lib.MatProduct.matProd_ix2]
  refine congrArg (· + v12 (ix1 k)) (Finset.sum_congr rfl fun c _ => ?_)
  rw [truncf_apply, cat_apply]

/-- Entry (r, j) of the step's result. -/
theorem node_block (v0 : Vec Ideal S5000x128 .f32) (v1 v3 : Vec Ideal S1x5000x128 .f32) (v10 : Vec Ideal S256x128 .bf16)
    (v12 : Vec Ideal S128 .f32) (v20 : Vec Ideal S128x128 .bf16) (v22 : Vec Ideal S128 .f32) (r : Fin 5000) (j : Fin 128) :
    k1_pay1 v0 v1 v3 v10 v12 v20 v22 (ix2 r j)
      = v0 (ix2 r j) + layer (fun k => silu (layer
          (sideBySide (fun k' => v0 (ix2 r k'))
            (fun k' => Ideal.div (v1 (ix3 (0 : Fin 1) r k') + v3 (ix3 (0 : Fin 1) r k')) hundred))
          (cur2 v10) (cur1 v12) k)) (cur2 v20) (cur1 v22) j := by
  unfold k1_pay1
  -- the result, with the first layer's pre-activation named
  show addf v0 (addf
      (matmul dot_S5000x128_S128x128_S5000x128_1_0_0_1_n_n none
        (truncf .bf16 (mulf (hiddenPre v0 (aggRows v1 v3) v10 v12) (logistic (hiddenPre v0 (aggRows v1 v3) v10 v12))) bitsLt_bf16_f32)
        (shapeCast S128x128 (v20 : FVec Ideal S128x128 .bf16) shapeCasts_S128x128_S128x128) (constant S5000x128 .f32 0x00000000#32))
      (broadcastTo S5000x128 (shapeCast S1x128 (v22 : FVec Ideal S128 .f32) shapeCasts_S128_S1x128) broadcasts_S1x128_S5000x128)) (ix2 r j) = _
  unfold layer
  rw [addf_apply, addf_apply, bias_apply, dims_second, shapeCast_self, Cert.Lib.MatProduct.matmul_plain_zero_eq, Cert.Lib.MatProduct.matProd_ix2]
  refine congrArg (v0 (ix2 r j) + ·) (congrArg (· + v22 (ix1 j)) (Finset.sum_congr rfl fun k _ => ?_))
  rw [truncf_apply, mulf_apply]
  show hiddenPre v0 (aggRows v1 v3) v10 v12 (ix2 r k) * Ideal.logistic (hiddenPre v0 (aggRows v1 v3) v10 v12 (ix2 r k)) * v20 (ix2 k j) = _
  rw [hiddenPre_apply]
  simp only [aggRows_apply]
  rfl

end Cert.KernelIdeal.NodeMath

end
-- ==== Proof.NodeValue.lean ====
/-
  The node kernel's region, read as values: its result as a whole array, over the extended reals.

  The region runs 2 steps of 5000 nodes. A step loads its nodes' old rows, both cores' aggregates of those nodes, the
  weights and the biases, and stores the new rows. With the step's arithmetic read at an index, step t writes back rows
  5000 t … 5000 t + 4999 of the array of new rows (`flushed_new`), and the two blocks tile it (`final_new`). The arrays the
  region finds are a parameter.
-/
import proofs.«429792_j52192442581787_3_alg».proof.Proof.EdgeRegion
import proofs.«429792_j52192442581787_3_alg».proof.Proof.NodeMath
import proofs.«429792_j52192442581787_3_alg».proof.Proof.Spec

set_option maxRecDepth 16384

noncomputable section

open scoped BigOperators

namespace Cert.KernelIdeal.Edge

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

section NodeArrays

open Cert.Gcl Cert.KernelIdeal.NodeMath

variable (V : (c : Dev nD) → (b : Ref sig .tc) → Buf (Elt Ideal) ((c : Thread nD τ).loc b)) (c : Dev nD)

/-- The arrays the node kernel's windows are cut from, as the region finds them. -/
abbrev oldArr : Vec Ideal S10000x128 .f32 := V c main_arg0
abbrev partArr : Vec Ideal S2x10000x128 .f32 := V c main_v15
abbrev nw1Arr : Vec Ideal S256x128 .bf16 := V c main_v12
abbrev nb1Arr : Vec Ideal S128 .f32 := V c main_arg7
abbrev nw2Arr : Vec Ideal S128x128 .bf16 := V c main_v13
abbrev nb2Arr : Vec Ideal S128 .f32 := V c main_arg9

/-- The node kernel's aggregate block at step t, at its literal type. -/
abbrev partBlk (t : Fin cfg1.N) : Vec Ideal S2x5000x128 .f32 := iblk1 V c 1 t
/-- Its old-rows block. -/
abbrev oldBlk (t : Fin cfg1.N) : Vec Ideal S5000x128 .f32 := iblk1 V c 0 t

/-- The new row of node n from those arrays: the old row plus the node perceptron of the old row and the two cores'
    aggregates of n, added and divided by 100, side by side. -/
def newRow (n : Fin 10000) (j : Fin 128) : EReal :=
  oldArr V c (ix2 n j) + layer (fun k => silu (layer
    (sideBySide (fun k' => oldArr V c (ix2 n k'))
      (fun k' => Ideal.div (partArr V c (ix3 (0 : Fin 2) n k') + partArr V c (ix3 (1 : Fin 2) n k')) hundred))
    (cur2 (nw1Arr V c)) (cur1 (nb1Arr V c)) k)) (cur2 (nw2Arr V c)) (cur1 (nb2Arr V c)) j

/-- The whole array of new rows. -/
def newArr : S10000x128.Idx → EReal := fun i => newRow V c ⟨(i 0).val, idx2_lt0 i⟩ ⟨(i 1).val, idx2_lt1 i⟩

theorem node_lt (t : Fin cfg1.N) (r : Fin 5000) : 5000 * t.val + r.val < 10000 := by
  have h := t.isLt; have hN : cfg1.N = 2 := N_1; have hr := r.isLt; omega

/-- Step t writes back rows 5000 t … 5000 t + 4999 of the array of new rows. -/
theorem flushed_new (t : Fin cfg1.N) :
    (dat1 V c).flushed 6 t = ((cfg1.win 6).blk t).view.read (Elt Ideal) (newArr V c) := by
  obtain ⟨⟨a0, a1⟩, ⟨b0, b1, b2⟩, ⟨c0, c1⟩, d0, ⟨e0, e1⟩, f0, ⟨g0, g1⟩⟩ := node_index t
  show (cfg1.win 6).cut (grid1.coords t) ((dat1 V c).after 6 t) = _
  rw [after1_6]
  unfold out1_6
  rw [View.canon_unit_zero hz2]
  funext y
  obtain ⟨r, j, rfl⟩ : ∃ (r : Fin 5000) (j : Fin 128), y = ix2 r j := ⟨y 0, y 1, eq_ix2 y⟩
  rw [View.read_apply]
  refine (node_block _ _ _ _ _ _ _ r j).trans ?_
  show _ = newArr V c (((cfg1.win 6).blk t).view.emb (ix2 r j))
  unfold newArr newRow
  have hrow : ∀ k' : Fin 128, View.ld (iblk1 V c 0 t) r1_0 (ix2 r k') = oldArr V c (ix2 (⟨5000 * t.val + r.val, node_lt t r⟩ : Fin 10000) k') := by
    intro k'
    show iblk1 V c 0 t (r1_0.idx (ix2 r k')) = _
    unfold iblk1
    rw [View.read_apply]
    show V c main_arg0 _ = V c main_arg0 _
    congr 1
    funext a; apply Fin.ext
    match a with
    | ⟨0, _⟩ => show win1_0.index t (0 : Fin 2) * 5000 + 1 * (0 + 1 * r.val) = 5000 * t.val + r.val; omega
    | ⟨1, _⟩ => show win1_0.index t (1 : Fin 2) * 128 + 1 * (0 + 1 * k'.val) = k'.val; omega
  have hpart : ∀ (z : Fin 2) (k' : Fin 128),
      iblk1 V c 1 t (ix3 z r k') = partArr V c (ix3 z (⟨5000 * t.val + r.val, node_lt t r⟩ : Fin 10000) k') := by
    intro z k'
    unfold iblk1
    rw [View.read_apply]
    show V c main_v15 _ = V c main_v15 _
    congr 1
    funext a; apply Fin.ext
    match a with
    | ⟨0, _⟩ => show win1_1.index t (0 : Fin 3) * 2 + 1 * z.val = z.val; omega
    | ⟨1, _⟩ => show win1_1.index t (1 : Fin 3) * 5000 + 1 * r.val = 5000 * t.val + r.val; omega
    | ⟨2, _⟩ => show win1_1.index t (2 : Fin 3) * 128 + 1 * k'.val = k'.val; omega
  have hp0 : ∀ k' : Fin 128, View.ld (iblk1 V c 1 t) r1_1 (ix3 (0 : Fin 1) r k') = partArr V c (ix3 (0 : Fin 2) (⟨5000 * t.val + r.val, node_lt t r⟩ : Fin 10000) k') := by
    intro k'
    refine Eq.trans ?_ (hpart 0 k')
    show iblk1 V c 1 t (r1_1.idx (ix3 (0 : Fin 1) r k')) = _
    congr 1
    funext a; apply Fin.ext
    match a with
    | ⟨0, _⟩ => show 0 + 1 * 0 = 0; rfl
    | ⟨1, _⟩ => show 0 + 1 * r.val = r.val; omega
    | ⟨2, _⟩ => show 0 + 1 * k'.val = k'.val; omega
  have hp1 : ∀ k' : Fin 128, View.ld (iblk1 V c 1 t) r1_2 (ix3 (0 : Fin 1) r k') = partArr V c (ix3 (1 : Fin 2) (⟨5000 * t.val + r.val, node_lt t r⟩ : Fin 10000) k') := by
    intro k'
    refine Eq.trans ?_ (hpart 1 k')
    show iblk1 V c 1 t (r1_2.idx (ix3 (0 : Fin 1) r k')) = _
    congr 1
    funext a; apply Fin.ext
    match a with
    | ⟨0, _⟩ => show 1 + 1 * 0 = 1; rfl
    | ⟨1, _⟩ => show 0 + 1 * r.val = r.val; omega
    | ⟨2, _⟩ => show 0 + 1 * k'.val = k'.val; omega

  have hw1 : View.ld (iblk1 V c 2 t) r1_3 = nw1Arr V c := by
    rw [View.ld_unit_zero (S := S256x128) hz2]
    funext y
    unfold iblk1
    rw [View.read_apply]
    show V c main_v12 _ = V c main_v12 y
    congr 1
    funext a; apply Fin.ext
    match a with
    | ⟨0, _⟩ => show win1_2.index t (0 : Fin 2) * 256 + 1 * (y 0).val = (y 0).val; omega
    | ⟨1, _⟩ => show win1_2.index t (1 : Fin 2) * 128 + 1 * (y 1).val = (y 1).val; omega
  have hb1 : View.ld (iblk1 V c 3 t) r1_4 = nb1Arr V c := by
    rw [View.ld_unit_zero (S := S128) hz1]
    funext y
    unfold iblk1
    rw [View.read_apply]
    show V c main_arg7 _ = V c main_arg7 y
    congr 1
    funext a; apply Fin.ext
    match a with
    | ⟨0, _⟩ => show win1_3.index t (0 : Fin 1) * 128 + 1 * (y 0).val = (y 0).val; omega
  have hw2 : View.ld (iblk1 V c 4 t) r1_5 = nw2Arr V c := by
    rw [View.ld_unit_zero (S := S128x128) hz2]
    funext y
    unfold iblk1
    rw [View.read_apply]
    show V c main_v13 _ = V c main_v13 y
    congr 1
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hb2 : View.ld (iblk1 V c 5 t) r1_4 = nb2Arr V c := by
    rw [View.ld_unit_zero (S := S128) hz1]
    funext y
    unfold iblk1
    rw [View.read_apply]
    show V c main_arg9 _ = V c main_arg9 y
    congr 1
    funext a; apply Fin.ext
    match a with
    | ⟨0, _⟩ => show win1_5.index t (0 : Fin 1) * 128 + 1 * (y 0).val = (y 0).val; omega
  have hA : (fun k' : Fin 128 => View.ld (oldBlk V c t) r1_0 (ix2 r k'))
      = fun k' => oldArr V c (ix2 (⟨5000 * t.val + r.val, node_lt t r⟩ : Fin 10000) k') := funext hrow
  have hB : (fun k' : Fin 128 => Ideal.div (View.ld (partBlk V c t) r1_1 (ix3 (0 : Fin 1) r k') + View.ld (partBlk V c t) r1_2 (ix3 (0 : Fin 1) r k')) hundred)
      = fun k' => Ideal.div (partArr V c (ix3 (0 : Fin 2) (⟨5000 * t.val + r.val, node_lt t r⟩ : Fin 10000) k')
          + partArr V c (ix3 (1 : Fin 2) (⟨5000 * t.val + r.val, node_lt t r⟩ : Fin 10000) k')) hundred :=
    funext fun k' => by rw [hp0, hp1]
  have e0 : (⟨((((cfg1.win 6).blk t).view.emb (ix2 r j)) 0).val, idx2_lt0 _⟩ : Fin 10000) = ⟨5000 * t.val + r.val, node_lt t r⟩ :=
    Fin.ext (by show win1_6.index t (0 : Fin 2) * 5000 + 1 * r.val = 5000 * t.val + r.val; omega)
  have e1 : (⟨((((cfg1.win 6).blk t).view.emb (ix2 r j)) 1).val, idx2_lt1 _⟩ : Fin 128) = j :=
    Fin.ext (by show win1_6.index t (1 : Fin 2) * 128 + 1 * j.val = j.val; omega)
  rw [e0, e1, hA, hB, hrow j]
  have key : ∀ (x : EReal) (S : Fin 256 → EReal) (W1 W1' : Vec Ideal S256x128 .bf16) (B1 B1' : Vec Ideal S128 .f32)
      (W2 W2' : Vec Ideal S128x128 .bf16) (B2 B2' : Vec Ideal S128 .f32),
      W1 = W1' → B1 = B1' → W2 = W2' → B2 = B2' →
      x + layer (fun k => silu (layer S (cur2 W1) (cur1 B1) k)) (cur2 W2) (cur1 B2) j
        = x + layer (fun k => silu (layer S (cur2 W1') (cur1 B1') k)) (cur2 W2') (cur1 B2') j := by
    intro x S W1 W1' B1 B1' W2 W2' B2 B2' h1 h2 h3 h4
    rw [h1, h2, h3, h4]
  exact key _ _ _ _ _ _ _ _ _ _ hw1 hb1 hw2 hb2

/-- Every row of the array of new rows is one of the two steps'. -/
theorem cover_new (i : S10000x128.Idx) :
    ∃ t : Fin cfg1.N, (cfg1.win 6).flush t = true ∧ i ∈ ((cfg1.win 6).blk t).view.set := by
  have hN : cfg1.N = 2 := N_1
  have hi0 : (i 0).val < 10000 := idx2_lt0 i
  have hi1 : (i 1).val < 128 := idx2_lt1 i
  let t : Fin cfg1.N := ⟨(i 0).val / 5000, by omega⟩
  have ht : t.val = (i 0).val / 5000 := rfl
  obtain ⟨-, -, -, -, -, -, ⟨g0, g1⟩⟩ := node_index t
  refine ⟨t, flush1_6 t, ?_⟩
  show i ∈ ((View.whole main_v16).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- So the node kernel's result ends holding the array of new rows. -/
theorem final_new : (dat1 V c).arrAt 6 cfg1.N = newArr V c :=
  (dat1 V c).arrAt_eq_of_cover 6 (newArr V c) (fun t _ => flushed_new V c t) cover_new

end NodeArrays

end Cert.KernelIdeal.Edge

end
-- ==== Proof.HostEntry.lean ====
/-
  What the edge kernel's region finds in its seven input arrays, in terms of the program's arguments.

  Before the region the program slices the two rows of the edge table, clips every word to 0 … 9999 (a maximum with 0
  then a minimum with 9999, signed), and lays each row out as 1 × 640000; converts the node rows to a narrower float
  format and pads them with 112 zero rows; converts the two edge weight matrices. Over the extended reals a change of
  float format is the identity, and a word that is a node's number is its own clip. So: the source and target words are
  the edge table's two rows; rows 0 … 9999 of the padded table are the node rows; the weights and biases are the
  arguments.
-/
import proofs.«429792_j52192442581787_3_alg».proof.Proof.Gen.KernelIdeal.Frame
import proofs.«429792_j52192442581787_3_alg».proof.Proof.Spec
import Idealize.ShloMosaic.Lib.KernelVsHost
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

set_option maxRecDepth 16384

noncomputable section

namespace Cert.KernelIdeal.Host

open Cert.KernelIdeal Cert.KernelIdeal.Gen Cert.Gcl Idealize.ShloMosaic Idealize.ShloMosaic.TcCoe Idealize.ShloMosaic.Tactic Idealize.SL.Sem Idealize.ShloMosaic.StableHlo
open Idealize.ShloMosaic.ValueIdx

/-! ## Words: the clip of a node's number -/

/-- A 32-bit word below 10000 is non-negative read signed, so its signed maximum with 0 is itself, and its signed
    minimum with 9999 is itself again. -/
private theorem clip_word (w : BitVec 32) (hw : w.toNat < 10000) :
    IntOp.minsi 9999#32 (IntOp.maxsi 0#32 w) = w := by
  have hti : w.toInt = (w.toNat : ℤ) := BitVec.toInt_eq_toNat_of_lt (by omega)
  have h0 : (0#32 : BitVec 32).toInt = 0 := by decide
  have h9 : (9999#32 : BitVec 32).toInt = 9999 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h9, decide_eq_true_eq]
  omega

/-- Row r of a 2 × 640000 table of words, sliced out, flattened, clipped to 0 … 9999 and laid out as 1 × 640000 again,
    read at (0, e): the table's word at (r, e) when that word is below 10000. The two shape casts keep the row-major
    position e; the slice shifts the row by its offset r. -/
private theorem clip_row (x : IVec S2x640000 32) (off : Fin S2x640000.rank → ℕ) (hs : S2x640000.Slices off S1x640000)
    (r : Fin 2) (h0 : off 0 = r.val) (h1 : off 1 = 0) (e : Fin 640000) (hx : (x (ix2 r e)).toNat < 10000) :
    shapeCast S1x640000 (minsi (broadcastInDim S640000 ![] bcast_S_S640000 (constantI S_ 32 9999#32))
      (maxsi (broadcastInDim S640000 ![] bcast_S_S640000 (constantI S_ 32 0#32))
        (shapeCast S640000 (extractStridedSlice S1x640000 off x hs) shapeCasts_S1x640000_S640000)))
      shapeCasts_S640000_S1x640000 (ix2 (0 : Fin 1) e) = x (ix2 r e) := by
  rw [shapeCast_apply _ shapeCasts_S640000_S1x640000 (ix2 (0 : Fin 1) e) (ix1 e) (by
    rw [Shape.rowMajor_val_one, Shape.rowMajor_val_two]
    show e.val = (0 : Fin 1).val * 640000 + e.val
    simp)]
  show IntOp.minsi 9999#32 (IntOp.maxsi 0#32
    (shapeCast S640000 (extractStridedSlice S1x640000 off x hs) shapeCasts_S1x640000_S640000 (ix1 e))) = _
  rw [shapeCast_apply _ shapeCasts_S1x640000_S640000 (ix1 e) (ix2 (0 : Fin 1) e) (by
      rw [Shape.rowMajor_val_one, Shape.rowMajor_val_two]
      show (0 : Fin 1).val * 640000 + e.val = e.val
      simp),
    extractStridedSlice_apply off x hs (ix2 (0 : Fin 1) e) (ix2 r e) (Fin.forall_fin_two.mpr
      ⟨by show r.val = off 0 + (0 : Fin 1).val; rw [h0]; rfl, by show e.val = off 1 + e.val; rw [h1, Nat.zero_add]⟩)]
  exact clip_word _ hx

variable (m : (ℓ : Loc nD τ sig) → Buf (Elt Ideal) ℓ) (ρ : Dev nD → PrngReg)

/-! ## The two rows of the edge table -/

/-- The source word of edge e is the edge table's entry (0, e), when the table holds node numbers. -/
theorem src_word (c : Dev nD) (hr : InRange (m ((c : Thread nD τ).loc main_arg1))) (e : Fin 640000) :
    (V7 m ρ c main_v3 : Vec Ideal S1x640000 .i32) (ix2 (0 : Fin 1) e) = m ((c : Thread nD τ).loc main_arg1) (ix2 (0 : Fin 2) e) := by
  have e3 : (W7 m ρ c (Proc.devRef .tc main_v3) : Vec Ideal S1x640000 .i32)
      = shapeCast S1x640000 (minsi (broadcastInDim S640000 ![] bcast_S_S640000 (constantI S_ 32 9999#32))
          (maxsi (broadcastInDim S640000 ![] bcast_S_S640000 (constantI S_ 32 0#32))
            (shapeCast S640000 (extractStridedSlice S1x640000 ![0, 0] (m ((c : Thread nD τ).loc main_arg1))
              slices_S2x640000_S1x640000_0_0) shapeCasts_S1x640000_S640000)))
          shapeCasts_S640000_S1x640000 := by
    dsimp only [W7, W6, W5, W4, W3, W2, W1, W0]
    after_results
    rfl
  show (W7 m ρ c (Proc.devRef .tc main_v3) : Vec Ideal S1x640000 .i32) (ix2 (0 : Fin 1) e) = _
  rw [e3]
  exact clip_row _ _ slices_S2x640000_S1x640000_0_0 (0 : Fin 2) rfl rfl e (hr 0 e)

/-- The target word of edge e is the edge table's entry (1, e), when the table holds node numbers. -/
theorem dst_word (c : Dev nD) (hr : InRange (m ((c : Thread nD τ).loc main_arg1))) (e : Fin 640000) :
    (V7 m ρ c main_v7 : Vec Ideal S1x640000 .i32) (ix2 (0 : Fin 1) e) = m ((c : Thread nD τ).loc main_arg1) (ix2 (1 : Fin 2) e) := by
  have e7 : (W7 m ρ c (Proc.devRef .tc main_v7) : Vec Ideal S1x640000 .i32)
      = shapeCast S1x640000 (minsi (broadcastInDim S640000 ![] bcast_S_S640000 (constantI S_ 32 9999#32))
          (maxsi (broadcastInDim S640000 ![] bcast_S_S640000 (constantI S_ 32 0#32))
            (shapeCast S640000 (extractStridedSlice S1x640000 ![1, 0] (m ((c : Thread nD τ).loc main_arg1))
              slices_S2x640000_S1x640000_1_0) shapeCasts_S1x640000_S640000)))
          shapeCasts_S640000_S1x640000 := by
    dsimp only [W7, W6, W5, W4, W3, W2, W1, W0]
    after_results
    rfl
  show (W7 m ρ c (Proc.devRef .tc main_v7) : Vec Ideal S1x640000 .i32) (ix2 (0 : Fin 1) e) = _
  rw [e7]
  exact clip_row _ _ slices_S2x640000_S1x640000_1_0 (1 : Fin 2) rfl rfl e (hr 1 e)

/-! ## The padded table of node rows -/

/-- Row n < 10000 of the padded table is node n's row. -/
theorem tbl_row (c : Dev nD) (n : Fin 10000) (k : Fin 128) :
    (V7 m ρ c main_v9 : Vec Ideal S10112x128 .bf16) (ix2 (⟨n.val, Nat.lt_trans n.isLt (by decide)⟩ : Fin 10112) k)
      = m ((c : Thread nD τ).loc main_arg0) (ix2 n k) := by
  have e9 : (W7 m ρ c (Proc.devRef .tc main_v9) : Vec Ideal S10112x128 .bf16)
      = (pad S10112x128 ![0, 0] ![112, 0] ![0, 0]
          (truncf (F := Ideal) .bf16 (m ((c : Thread nD τ).loc main_arg0) : Vec Ideal S10000x128 .f32) bitsLt_bf16_f32)
          (sitofp (F := Ideal) .bf16 (constantI S_ 32 0#32)) pads_S10000x128_S10112x128_01120_000 h_S_
          : Vec Ideal S10112x128 .bf16) := by
    dsimp only [W7, W6, W5, W4, W3, W2, W1, W0]
    after_results
    rfl
  show (W7 m ρ c (Proc.devRef .tc main_v9) : Vec Ideal S10112x128 .bf16) _ = _
  rw [e9, pad_apply_of_inside _ _ _ _ _ pads_S10000x128_S10112x128_01120_000 h_S_ _ (ix2 n k) (Fin.forall_fin_two.mpr
    ⟨by show n.val = 0 + n.val * (0 + 1); omega, by show k.val = 0 + k.val * (0 + 1); omega⟩)]
  rfl

/-! ## The weights: a change of float format is the identity over the extended reals -/

/-- The edge perceptron's weights and biases are the arguments. -/
theorem ew1_eq (c : Dev nD) : (V7 m ρ c main_v10 : Vec Ideal S256x128 .bf16) = m ((c : Thread nD τ).loc main_arg2) := by
  show W7 m ρ c (Proc.devRef .tc main_v10) = _
  dsimp only [W7, W6, W5, W4, W3, W2, W1, W0]
  after_results
  funext i
  rfl

theorem ew2_eq (c : Dev nD) : (V7 m ρ c main_v11 : Vec Ideal S128x128 .bf16) = m ((c : Thread nD τ).loc main_arg4) := by
  show W7 m ρ c (Proc.devRef .tc main_v11) = _
  dsimp only [W7, W6, W5, W4, W3, W2, W1, W0]
  after_results
  funext i
  rfl

/-! ## The biases: arguments that no operation before the region writes -/

/-- A stretch of host operations none of which writes a buffer leaves it as it was: each operation's written reference
    is compared with the buffer's. -/
local macro "stretch_keeps" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

theorem eb1_eq (c : Dev nD) : (V7 m ρ c main_arg3 : Vec Ideal S128 .f32) = m ((c : Thread nD τ).loc main_arg3) :=
  calc W7 m ρ c (Proc.devRef .tc main_arg3)
    _ = W6 m ρ c (Proc.devRef .tc main_arg3) := by stretch_keeps hostOps0_6
    _ = W5 m ρ c (Proc.devRef .tc main_arg3) := by stretch_keeps hostOps0_5
    _ = W4 m ρ c (Proc.devRef .tc main_arg3) := by stretch_keeps hostOps0_4
    _ = W3 m ρ c (Proc.devRef .tc main_arg3) := by stretch_keeps hostOps0_3
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c : Thread nD τ).loc main_arg3) := rfl

theorem eb2_eq (c : Dev nD) : (V7 m ρ c main_arg5 : Vec Ideal S128 .f32) = m ((c : Thread nD τ).loc main_arg5) :=
  calc W7 m ρ c (Proc.devRef .tc main_arg5)
    _ = W6 m ρ c (Proc.devRef .tc main_arg5) := by stretch_keeps hostOps0_6
    _ = W5 m ρ c (Proc.devRef .tc main_arg5) := by stretch_keeps hostOps0_5
    _ = W4 m ρ c (Proc.devRef .tc main_arg5) := by stretch_keeps hostOps0_4
    _ = W3 m ρ c (Proc.devRef .tc main_arg5) := by stretch_keeps hostOps0_3
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = m ((c : Thread nD τ).loc main_arg5) := rfl

end Cert.KernelIdeal.Host

end
-- ==== Proof.HostBetween.lean ====
/-
  What the node kernel's region finds in its six input arrays, and where the program's two results sit at the end.

  Between the two regions the program only slices rows 0 … 9999 out of both slabs of the edge kernel's second result.
  The node rows and the node biases are arguments no operation and no region writes; the node weights are the
  arguments converted to a narrower float format, the identity over the extended reals. At the end the first result is
  what the node kernel's region leaves in its result array, and the second is what the edge kernel's region left in its
  first result array, which nothing later writes.
-/
import proofs.«429792_j52192442581787_3_alg».proof.Proof.Gen.KernelIdeal.Frame
import proofs.«429792_j52192442581787_3_alg».proof.Proof.Spec
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

set_option maxRecDepth 16384

noncomputable section

namespace Cert.KernelIdeal.Host

open Cert.KernelIdeal Cert.KernelIdeal.Gen Cert.Gcl Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-- The old rows are the argument. -/
theorem old_eq (c : Dev nD) : (V9 m ρ c main_arg0 : Vec Ideal S10000x128 .f32) = m ((c : Thread nD τ).loc main_arg0) :=
  -- the node kernel's region leaves its first input array as it found it, and from there on the argument is as launched
  (((W10_arr m ρ c 0).trans (((dat1 (V9 m ρ) c).arrAt_in 0 rfl _).trans (A_eq1 (V9 m ρ) c 0))).symm).trans
    (W10_main_arg0 m ρ c)

/-- Entry (z, n, k) of the sliced aggregates is entry (z, n, k) of what the edge kernel's region left in its second result. -/
theorem part_apply (c : Dev nD) (z : Fin 2) (n : Fin 10000) (k : Fin 128) :
    (V9 m ρ c main_v15 : Vec Ideal S2x10000x128 .f32) (ix3 z n k)
      = ((dat0 (V7 m ρ) c).arrAt 8 cfg0.N : Vec Ideal S2x10112x128 .f32) (ix3 z (⟨n.val, Nat.lt_trans n.isLt (by decide)⟩ : Fin 10112) k) := by
  -- the one operation between the regions writes the slice at offsets (0, 0, 0) of the edge kernel's second result,
  have e : (W9 m ρ c (Proc.devRef .tc main_v15) : Vec Ideal S2x10000x128 .f32)
      = extractStridedSlice S2x10000x128 ![0, 0, 0] (W8 m ρ c (Proc.devRef .tc main_v14_1) : Vec Ideal S2x10112x128 .f32)
          slices_S2x10112x128_S2x10000x128_0_0_0 := by
    dsimp only [W9]
    after_results
  -- which is the edge kernel's ninth array, at what its region leaves there.
  have e8 : W8 m ρ c (Proc.devRef .tc main_v14_1) = (dat0 (V7 m ρ) c).arrAt 8 cfg0.N := W8_arr m ρ c 8
  refine (congrFun e (ix3 z n k)).trans ?_
  -- a slice at offset 0 along every axis reads the same three coordinates
  refine (extractStridedSlice_apply _ _ slices_S2x10112x128_S2x10000x128_0_0_0 (ix3 z n k)
    (ix3 z (⟨n.val, Nat.lt_trans n.isLt (by decide)⟩ : Fin 10112) k) (by
      intro a
      match a with
      | ⟨0, _⟩ => show z.val = 0 + z.val; omega
      | ⟨1, _⟩ => show n.val = 0 + n.val; omega
      | ⟨2, _⟩ => show k.val = 0 + k.val; omega)).trans ?_
  exact congrFun e8 _

/-- The node perceptron's weights and biases are the arguments. -/
theorem nw1_eq (c : Dev nD) : (V9 m ρ c main_v12 : Vec Ideal S256x128 .bf16) = m ((c : Thread nD τ).loc main_arg6) := by
  -- the slice between the regions writes another buffer,
  have e9 : W9 m ρ c (Proc.devRef .tc main_v12) = W8 m ρ c (Proc.devRef .tc main_v12) :=
    StableHlo.after_of_forall_not_mem (b := Proc.devRef .tc main_v12) _ _ (List.forall_iff_forall_mem.mp (by
      simp only [hostOps1, List.Forall, StableHlo.unary_writes, Finset.mem_singleton]
      exact StableHlo.devRef_ne_of_ne (by decide)))
  -- it is none of the edge kernel's arrays,
  have e8 : W8 m ρ c (Proc.devRef .tc main_v12) = W7 m ρ c (Proc.devRef .tc main_v12) := W8_of_ne m ρ c main_v12 (by decide)
  -- and the operations before the edge kernel leave in it the argument converted to the narrower format,
  have e7 : (W7 m ρ c (Proc.devRef .tc main_v12) : Vec Ideal S256x128 .bf16)
      = (truncf .bf16 (m ((c : Thread nD τ).loc main_arg6) : FVec Ideal S256x128 .f32) bitsLt_bf16_f32 : FVec Ideal S256x128 .bf16) := by
    dsimp only [W7, W6, W5, W4, W3, W2, W1, W0]
    after_results
  -- which over the extended reals is the argument itself, entry by entry.
  exact (e9.trans (e8.trans e7)).trans (funext fun i => truncf_apply _ bitsLt_bf16_f32 i)
theorem nb1_eq (c : Dev nD) : (V9 m ρ c main_arg7 : Vec Ideal S128 .f32) = m ((c : Thread nD τ).loc main_arg7) :=
  (((W10_arr m ρ c 3).trans (((dat1 (V9 m ρ) c).arrAt_in 3 rfl _).trans (A_eq1 (V9 m ρ) c 3))).symm).trans
    (W10_main_arg7 m ρ c)
theorem nw2_eq (c : Dev nD) : (V9 m ρ c main_v13 : Vec Ideal S128x128 .bf16) = m ((c : Thread nD τ).loc main_arg8) := by
  -- the slice between the regions writes another buffer,
  have e9 : W9 m ρ c (Proc.devRef .tc main_v13) = W8 m ρ c (Proc.devRef .tc main_v13) :=
    StableHlo.after_of_forall_not_mem (b := Proc.devRef .tc main_v13) _ _ (List.forall_iff_forall_mem.mp (by
      simp only [hostOps1, List.Forall, StableHlo.unary_writes, Finset.mem_singleton]
      exact StableHlo.devRef_ne_of_ne (by decide)))
  -- it is none of the edge kernel's arrays,
  have e8 : W8 m ρ c (Proc.devRef .tc main_v13) = W7 m ρ c (Proc.devRef .tc main_v13) := W8_of_ne m ρ c main_v13 (by decide)
  -- and the operations before the edge kernel leave in it the argument converted to the narrower format,
  have e7 : (W7 m ρ c (Proc.devRef .tc main_v13) : Vec Ideal S128x128 .bf16)
      = (truncf .bf16 (m ((c : Thread nD τ).loc main_arg8) : FVec Ideal S128x128 .f32) bitsLt_bf16_f32 : FVec Ideal S128x128 .bf16) := by
    dsimp only [W7, W6, W5, W4, W3, W2, W1, W0]
    after_results
  -- which over the extended reals is the argument itself, entry by entry.
  exact (e9.trans (e8.trans e7)).trans (funext fun i => truncf_apply _ bitsLt_bf16_f32 i)
theorem nb2_eq (c : Dev nD) : (V9 m ρ c main_arg9 : Vec Ideal S128 .f32) = m ((c : Thread nD τ).loc main_arg9) :=
  (((W10_arr m ρ c 5).trans (((dat1 (V9 m ρ) c).arrAt_in 5 rfl _).trans (A_eq1 (V9 m ρ) c 5))).symm).trans
    (W10_main_arg9 m ρ c)

/-- At the end the program's first result is what the node kernel's region leaves in its result array. -/
theorem res_new (c : Dev nD) :
    W10 m ρ c (Proc.devRef .tc main_v16) = (dat1 (V9 m ρ) c).arrAt 6 cfg1.N :=
  W10_arr m ρ c 6

/-- At the end the program's second result is what the edge kernel's region left in its first result array. -/
theorem res_msg (c : Dev nD) :
    W10 m ρ c (Proc.devRef .tc main_v14_0) = (dat0 (V7 m ρ) c).arrAt 7 cfg0.N :=
  calc W10 m ρ c (Proc.devRef .tc main_v14_0)
    -- it is none of the node kernel's arrays,
    _ = W9 m ρ c (Proc.devRef .tc main_v14_0) := W10_of_ne m ρ c main_v14_0 (by decide)
    -- the slice between the regions writes another buffer,
    _ = W8 m ρ c (Proc.devRef .tc main_v14_0) :=
        StableHlo.after_of_forall_not_mem (b := Proc.devRef .tc main_v14_0) _ _ (List.forall_iff_forall_mem.mp (by
          simp only [hostOps1, List.Forall, StableHlo.unary_writes, Finset.mem_singleton]
          exact StableHlo.devRef_ne_of_ne (by decide)))
    -- and it is the edge kernel's eighth array.
    _ = (dat0 (V7 m ρ) c).arrAt 7 cfg0.N := W8_arr m ρ c 7

end Cert.KernelIdeal.Host

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.EdgeSum.lean ====
/-
  A sum over the 640000 edges, taken the way the edge kernel takes it.

  The kernel walks the edges in 5000 steps of 128, the first 2500 steps on one core and the last 2500 on the other, each
  core adding its steps' contributions onto a zero array; the node kernel then adds the two cores' arrays. So a sum over
  all edges appears as (0 + the first core's 2500 steps) + (0 + the second core's 2500 steps), each step a sum over its 128
  edges. Addition of extended reals is commutative and associative, so this is the plain sum over the edges.
-/
import proofs.«429792_j52192442581787_3_alg».proof.Proof.LibTileSum
import Idealize.ShloMosaic.PureOps.Ideal

noncomputable section

open scoped BigOperators

namespace Cert.Gcl

theorem edge_of_step_lt (s : ℕ) (hs : s < 5000) (p : Fin 128) : 128 * s + p.val < 640000 := by
  have := p.isLt; omega

/-- If `g s p` is the contribution of edge 128 s + p for every step s below 5000, the sum of `f` over all edges is the two
    cores' sums, each started from zero, added. -/
theorem sum_edges_two_runs (f : Fin 640000 → EReal) (g : ℕ → Fin 128 → EReal)
    (hg : ∀ (s : ℕ) (hs : s < 5000) (p : Fin 128), g s p = f ⟨128 * s + p.val, edge_of_step_lt s hs p⟩) :
    ∑ e : Fin 640000, f e
      = (0 + ∑ s ∈ Finset.range 2500, ∑ p : Fin 128, g (2500 * 0 + s) p)
        + (0 + ∑ s ∈ Finset.range 2500, ∑ p : Fin 128, g (2500 * 1 + s) p) := by
  -- The right side: the two zeros vanish and the two runs of 2500 steps are the 5000 steps in order.
  have hR : (0 + ∑ s ∈ Finset.range 2500, ∑ p : Fin 128, g (2500 * 0 + s) p)
        + (0 + ∑ s ∈ Finset.range 2500, ∑ p : Fin 128, g (2500 * 1 + s) p)
      = ∑ s ∈ Finset.range 5000, ∑ p : Fin 128, g s p := by
    rw [zero_add, zero_add, show (5000 : ℕ) = 2500 + 2500 from rfl, Finset.sum_range_add]
    simp only [Nat.mul_zero, Nat.zero_add, Nat.mul_one]
  rw [hR]
  -- The left side: 640000 = 5000 * 128, so the edges are 5000 tiles of 128.
  have hL : ∑ e : Fin 640000, f e
      = ∑ k : Fin (5000 * 128), f (finCongr (by norm_num : 5000 * 128 = 640000) k) :=
    (Equiv.sum_comp (finCongr (by norm_num : 5000 * 128 = 640000)) f).symm
  rw [hL, Cert.Lib.TileSum.sum_tiles 5000 128,
    ← Fin.sum_univ_eq_sum_range (fun s => ∑ p : Fin 128, g s p) 5000]
  refine Finset.sum_congr rfl fun t _ => Finset.sum_congr rfl fun p _ => ?_
  -- Edge t * 128 + p is edge 128 * t + p.
  rw [hg t.val t.isLt p]
  refine congrArg f (Fin.ext ?_)
  show t.val * 128 + p.val = 128 * t.val + p.val
  rw [Nat.mul_comm]

end Cert.Gcl

end
-- ==== Proof.KernelSide.lean ====
/-
  The kernel program computes the round of message passing of the specification.

  The pieces: what each region leaves in its result arrays as a function of the arrays it finds (the two regions' value
  modules), what those arrays are in terms of the program's arguments (the host modules), and the program's run with its
  two results named. Put together, on an edge table of node numbers: the words the edge kernel looks rows up by are the
  table's entries, the padded table's rows are the node rows, so every message is the specification's; the two cores'
  aggregates, added, are the sum over all edges leaving a node (the sum over the 640000 edges regrouped into the
  kernel's two runs of 2500 steps of 128 edges); and the node kernel's result is the specification's new rows.
-/
import proofs.«429792_j52192442581787_3_alg».proof.Proof.EdgeValue
import proofs.«429792_j52192442581787_3_alg».proof.Proof.NodeValue
import proofs.«429792_j52192442581787_3_alg».proof.Proof.HostEntry
import proofs.«429792_j52192442581787_3_alg».proof.Proof.HostBetween
import proofs.«429792_j52192442581787_3_alg».proof.Proof.EdgeSum
import proofs.«429792_j52192442581787_3_alg».proof.Proof.ValueRun
import proofs.«429792_j52192442581787_3_alg».proof.Proof.Spec

set_option maxRecDepth 16384

noncomputable section

open scoped BigOperators

namespace Cert.KernelIdeal.Side

open Cert.KernelIdeal Cert.KernelIdeal.Gen Cert.KernelIdeal.Edge Cert.KernelIdeal.Host Cert.Gcl
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ## The edge kernel's words and rows -/

theorem srcW_toNat (hr : InRange (m ((c : Thread nD τ).loc main_arg1))) (e : Fin 640000) :
    (srcW (V7 m ρ) c e).toNat = (nodeOf (m ((c : Thread nD τ).loc main_arg1)) 0 e).val := by
  rw [show srcW (V7 m ρ) c e = (m ((c : Thread nD τ).loc main_arg1)) (ix2 (0 : Fin 2) e) from src_word m ρ c hr e, nodeOf_val hr]

theorem dstW_toNat (hr : InRange (m ((c : Thread nD τ).loc main_arg1))) (e : Fin 640000) :
    (dstW (V7 m ρ) c e).toNat = (nodeOf (m ((c : Thread nD τ).loc main_arg1)) 1 e).val := by
  rw [show dstW (V7 m ρ) c e = (m ((c : Thread nD τ).loc main_arg1)) (ix2 (1 : Fin 2) e) from dst_word m ρ c hr e, nodeOf_val hr]

/-- On a table of node numbers every word the edge kernel meets is a row of the padded table. -/
theorem wordsInTable (hr : InRange (m ((c : Thread nD τ).loc main_arg1))) : WordsInTable (V7 m ρ) c := fun e =>
  ⟨by rw [srcW_toNat m ρ c hr]; have := (nodeOf (m ((c : Thread nD τ).loc main_arg1)) 0 e).isLt; omega,
   by rw [dstW_toNat m ρ c hr]; have := (nodeOf (m ((c : Thread nD τ).loc main_arg1)) 1 e).isLt; omega⟩

/-- Row n of the padded table, for a node n, is the node's row. -/
theorem tblRow_node (n : Fin 10000) : tblRow (V7 m ρ) c n.val = cur2 (m ((c : Thread nD τ).loc main_arg0)) n := by
  rw [tblRow_eq (V7 m ρ) c n.val (Nat.lt_trans n.isLt (by decide))]
  funext k
  exact tbl_row m ρ c n k

/-- So the kernel's message of an edge is the specification's. -/
theorem kmsg_eq (hr : InRange (m ((c : Thread nD τ).loc main_arg1))) (e : Fin 640000) (q : Fin 128) :
    kmsg (V7 m ρ) c e q = msg (cur2 (m ((c : Thread nD τ).loc main_arg0))) (nodeOf (m ((c : Thread nD τ).loc main_arg1)) 0) (nodeOf (m ((c : Thread nD τ).loc main_arg1)) 1) (cur2 (m ((c : Thread nD τ).loc main_arg2))) (cur1 (m ((c : Thread nD τ).loc main_arg3))) (cur2 (m ((c : Thread nD τ).loc main_arg4))) (cur1 (m ((c : Thread nD τ).loc main_arg5))) e q := by
  have h2 : ew1Arr (V7 m ρ) c = (m ((c : Thread nD τ).loc main_arg2)) := ew1_eq m ρ c
  have h3 : eb1Arr (V7 m ρ) c = (m ((c : Thread nD τ).loc main_arg3)) := eb1_eq m ρ c
  have h4 : ew2Arr (V7 m ρ) c = (m ((c : Thread nD τ).loc main_arg4)) := ew2_eq m ρ c
  have h5 : eb2Arr (V7 m ρ) c = (m ((c : Thread nD τ).loc main_arg5)) := eb2_eq m ρ c
  unfold kmsg msg edgeHidden
  rw [srcW_toNat m ρ c hr, dstW_toNat m ρ c hr, tblRow_node, tblRow_node, h2, h3, h4, h5]

/-- The edge kernel's first result is the array of messages. -/
theorem msgArr_eq (hr : InRange (m ((c : Thread nD τ).loc main_arg1))) :
    msgArr (V7 m ρ) c = msgOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  unfold msgArr msgOf
  exact kmsg_eq m ρ c hr _ _

/-! ## The aggregates -/

/-- What edge e contributes to entry (n, k) of the summed messages. -/
abbrev contrib (n : Fin 10000) (k : Fin 128) (e : Fin 640000) : EReal :=
  if nodeOf (m ((c : Thread nD τ).loc main_arg1)) 0 e = n then msg (cur2 (m ((c : Thread nD τ).loc main_arg0))) (nodeOf (m ((c : Thread nD τ).loc main_arg1)) 0) (nodeOf (m ((c : Thread nD τ).loc main_arg1)) 1) (cur2 (m ((c : Thread nD τ).loc main_arg2))) (cur1 (m ((c : Thread nD τ).loc main_arg3))) (cur2 (m ((c : Thread nD τ).loc main_arg4))) (cur1 (m ((c : Thread nD τ).loc main_arg5))) e k else 0

/-- The same by step and place within the step (zero for a number that is no step). -/
def stepContrib (n : Fin 10000) (k : Fin 128) (s : ℕ) (p : Fin 128) : EReal :=
  if hs : s < 5000 then contrib m c n k ⟨128 * s + p.val, edge_of_step_lt s hs p⟩ else 0

theorem n_lt (n : Fin 10000) : n.val < 10112 := Nat.lt_trans n.isLt (by decide)

/-- What a step adds to row n of its core's aggregate is the step's edges' contributions. -/
theorem stepAdd_eq (hr : InRange (m ((c : Thread nD τ).loc main_arg1))) (s : ℕ) (hs : s < 5000) (n : Fin 10000) (k : Fin 128) :
    stepAdd (V7 m ρ) c s (ix3 (0 : Fin 1) (⟨n.val, n_lt n⟩ : Fin 10112) k) = ∑ p : Fin 128, stepContrib m c n k s p := by
  have hN : cfg0.N = 5000 := N_0
  unfold stepAdd
  rw [dif_pos (by omega : s < cfg0.N)]
  refine Finset.sum_congr rfl fun p _ => ?_
  unfold stepContrib contrib
  rw [dif_pos hs, srcW_toNat m ρ c hr, kmsg_eq m ρ c hr]
  refine if_congr ?_ rfl rfl
  constructor
  · intro h; exact Fin.ext h
  · intro h; exact congrArg Fin.val h

/-- Entry (z, n, k) of the two cores' aggregates: core z's 2500 steps' contributions, from zero. -/
theorem aggArr_apply (hr : InRange (m ((c : Thread nD τ).loc main_arg1))) (z : Fin 2) (n : Fin 10000) (k : Fin 128) :
    aggArr (V7 m ρ) c (ix3 z (⟨n.val, n_lt n⟩ : Fin 10112) k)
      = 0 + ∑ s ∈ Finset.range 2500, ∑ p : Fin 128, stepContrib m c n k (2500 * z.val + s) p := by
  unfold aggArr
  congr 1
  refine Finset.sum_congr rfl fun s hs => ?_
  have hs' : s < 2500 := Finset.mem_range.mp hs
  have hz : z.val < 2 := z.isLt
  exact stepAdd_eq m ρ c hr (2500 * z.val + s) (by omega) n k

/-- The two cores' aggregates of node n, added, are the sum of the messages of all edges leaving n. -/
theorem agg_add (hr : InRange (m ((c : Thread nD τ).loc main_arg1))) (n : Fin 10000) (k : Fin 128) :
    aggArr (V7 m ρ) c (ix3 (0 : Fin 2) (⟨n.val, n_lt n⟩ : Fin 10112) k)
        + aggArr (V7 m ρ) c (ix3 (1 : Fin 2) (⟨n.val, n_lt n⟩ : Fin 10112) k)
      = msgSum (cur2 (m ((c : Thread nD τ).loc main_arg0))) (nodeOf (m ((c : Thread nD τ).loc main_arg1)) 0) (nodeOf (m ((c : Thread nD τ).loc main_arg1)) 1) (cur2 (m ((c : Thread nD τ).loc main_arg2))) (cur1 (m ((c : Thread nD τ).loc main_arg3))) (cur2 (m ((c : Thread nD τ).loc main_arg4))) (cur1 (m ((c : Thread nD τ).loc main_arg5))) n k := by
  rw [aggArr_apply m ρ c hr 0 n k, aggArr_apply m ρ c hr 1 n k]
  exact (sum_edges_two_runs (contrib m c n k) (stepContrib m c n k)
    (fun s hs p => by unfold stepContrib; rw [dif_pos hs])).symm

/-! ## The node kernel's result -/

/-- The node kernel's result is the array of new rows. -/
theorem newArr_eq (hr : InRange (m ((c : Thread nD τ).loc main_arg1))) :
    newArr (V9 m ρ) c = updOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have g0 : oldArr (V9 m ρ) c = (m ((c : Thread nD τ).loc main_arg0)) := old_eq m ρ c
  have g6 : nw1Arr (V9 m ρ) c = (m ((c : Thread nD τ).loc main_arg6)) := nw1_eq m ρ c
  have g7 : nb1Arr (V9 m ρ) c = (m ((c : Thread nD τ).loc main_arg7)) := nb1_eq m ρ c
  have g8 : nw2Arr (V9 m ρ) c = (m ((c : Thread nD τ).loc main_arg8)) := nw2_eq m ρ c
  have g9 : nb2Arr (V9 m ρ) c = (m ((c : Thread nD τ).loc main_arg9)) := nb2_eq m ρ c
  have hw := wordsInTable m ρ c hr
  have gp : ∀ (n : Fin 10000), (fun k' : Fin 128 => Ideal.div (partArr (V9 m ρ) c (ix3 (0 : Fin 2) n k') + partArr (V9 m ρ) c (ix3 (1 : Fin 2) n k')) hundred)
      = agg (cur2 (m ((c : Thread nD τ).loc main_arg0))) (nodeOf (m ((c : Thread nD τ).loc main_arg1)) 0) (nodeOf (m ((c : Thread nD τ).loc main_arg1)) 1) (cur2 (m ((c : Thread nD τ).loc main_arg2))) (cur1 (m ((c : Thread nD τ).loc main_arg3))) (cur2 (m ((c : Thread nD τ).loc main_arg4))) (cur1 (m ((c : Thread nD τ).loc main_arg5))) n := by
    intro n
    funext k'
    unfold agg
    rw [show partArr (V9 m ρ) c (ix3 (0 : Fin 2) n k') = aggArr (V7 m ρ) c (ix3 (0 : Fin 2) (⟨n.val, n_lt n⟩ : Fin 10112) k') from
          (part_apply m ρ c 0 n k').trans (congrFun (final_agg (V7 m ρ) c hw) _),
        show partArr (V9 m ρ) c (ix3 (1 : Fin 2) n k') = aggArr (V7 m ρ) c (ix3 (1 : Fin 2) (⟨n.val, n_lt n⟩ : Fin 10112) k') from
          (part_apply m ρ c 1 n k').trans (congrFun (final_agg (V7 m ρ) c hw) _),
        agg_add m ρ c hr n k']
  funext i
  unfold newArr newRow updOf upd nodeHidden
  rw [gp, g0, g6, g7, g8, g9]

/-! ## The run -/

/-- On an edge table of node numbers, every weakly fair execution of the kernel program ends with its first result at the
    array of new rows, its second at the array of messages, and its arguments as launched. -/
theorem run (hr : ∀ c : Dev nD, InRange (m ((c : Thread nD τ).loc main_arg1))) :
    θ_run defs (onTc (τ := τ) (main (F := Ideal))) ⟨m, fun _ => 0, ρ⟩ (fun r => ∀ c : Dev nD,
      r.2.mem ((c.tc : Thread nD τ).loc main_v16) = updOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v14_0) = msgOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c).1.trans ((res_new m ρ c).trans ((final_new (V9 m ρ) c).trans (newArr_eq m ρ c (hr c)))),
     (h c).2.1.trans ((res_msg m ρ c).trans ((final_msg (V7 m ρ) c (wordsInTable m ρ c (hr c))).trans (msgArr_eq m ρ c (hr c)))),
     (h c).2.2⟩)
    (Cert.KernelIdeal.ValueRun.run_values (F := Ideal) m ρ)

end Cert.KernelIdeal.Side

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.LibRowScatter.lean ====
/-
  The accumulating scatter of ROWS, read at an index.

  For an operand [N, C], a column [R, 1] of scatter indices and updates [R, C] (the update's axis 1 is the window axis,
  the operand's axis 0 the inserted one the scatter index names), update element (n, q') lands on operand element
  (p, q) exactly when the scatter index of row n, read signed, is p's number and q' = q; an index outside 0 … N - 1
  lands nowhere. So over the extended reals the accumulating scatter at (p, q) is the operand there plus the sum, over
  the update rows n whose scatter index is p, of the update at (n, q).
-/
import Idealize.ShloMosaic.PureOps.Ideal
import Idealize.ShloMosaic.PureOps.Contract
import Idealize.ShloMosaic.Lib.ValueIdx

noncomputable section

open scoped BigOperators

namespace Cert.Lib.RowScatter

open Idealize.ShloMosaic Idealize.ShloMosaic.ValueIdx

/-- A sum over the elements that satisfy a condition is the sum of the terms switched by an equivalent condition. -/
theorem sum_filter_of_iff {ι M : Type*} [AddCommMonoid M] (s : Finset ι) (P Q : ι → Prop) [DecidablePred P] [DecidablePred Q]
    (h : ∀ j, P j ↔ Q j) (f : ι → M) : ∑ j ∈ s.filter P, f j = ∑ j ∈ s, if Q j then f j else 0 := by
  rw [Finset.sum_filter]
  refine Finset.sum_congr rfl fun j _ => ?_
  by_cases hq : Q j
  · rw [if_pos hq, if_pos ((h j).mpr hq)]
  · rw [if_neg hq, if_neg (mt (h j).mp hq)]

/-- The dimension numbers of x.at[idx].add(u) for an operand [N, C], scatter indices [R, 1] and updates [R, C]. -/
abbrev putRowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the operand's row axis the window of update element j starts at the scatter index of j's row, read signed. -/
theorem putRow_start0 (j : (⟨2, ![R, C]⟩ : Shape).Idx) (idx : IVec ⟨2, ![R, 1]⟩ w) :
    (putRowDims N R C wf).start j idx 0 = (idx (ix2 (⟨(j 0).val, idx2_lt0 j⟩ : Fin R) (0 : Fin 1))).toInt := by
  unfold ScatterDims.start
  rw [dif_pos (show (0 : Fin 2) ∈ (putRowDims N R C wf).scatterDimsToOperandDims from List.mem_singleton.mpr rfl)]
  have hsi : (putRowDims N R C wf).siIdx j ⟨List.idxOf (0 : Fin 2) (putRowDims N R C wf).scatterDimsToOperandDims,
      List.idxOf_lt_length_iff.2 (List.mem_singleton.mpr rfl)⟩ = ix2 (⟨(j 0).val, idx2_lt0 j⟩ : Fin R) (0 : Fin 1) := by
    funext b; refine Fin.ext ?_
    match b with
    | ⟨0, _⟩ => rfl
    | ⟨1, _⟩ => rfl
  rw [hsi]

/-- On the operand's column axis the window starts at 0. -/
theorem putRow_start1 (j : (⟨2, ![R, C]⟩ : Shape).Idx) (idx : IVec ⟨2, ![R, 1]⟩ w) :
    (putRowDims N R C wf).start j idx 1 = 0 := by
  unfold ScatterDims.start
  rw [dif_neg]
  intro h
  exact absurd (List.mem_singleton.mp h) (show (1 : Fin 2) ≠ 0 by decide)

/-- The window has one row. -/
theorem putRow_window0 (j : (⟨2, ![R, C]⟩ : Shape).Idx) : (putRowDims N R C wf).window j 0 = 0 := by
  unfold ScatterDims.window
  rw [dif_neg]
  simp [ScatterDims.sKept, Shape.kept, List.mem_filter, List.mem_finRange]

/-- Across the columns the window coordinate is the update element's column. -/
theorem putRow_window1 (j : (⟨2, ![R, C]⟩ : Shape).Idx) : (putRowDims N R C wf).window j 1 = (j 1).val := by
  unfold ScatterDims.window
  have hm : (1 : Fin 2) ∈ (putRowDims N R C wf).sKept := by
    simp [ScatterDims.sKept, Shape.kept, List.mem_filter, List.mem_finRange]
  rw [dif_pos hm]
  rfl

/-- Update element j lands at operand element i exactly when the scatter index of j's row, read signed, is i's row
    number and the two are in the same column. -/
theorem putRow_resultIdx?_eq_some_iff (j : (⟨2, ![R, C]⟩ : Shape).Idx) (idx : IVec ⟨2, ![R, 1]⟩ w)
    (i : (⟨2, ![N, C]⟩ : Shape).Idx) :
    (putRowDims N R C wf).resultIdx? j idx = some i
      ↔ (idx (ix2 (⟨(j 0).val, idx2_lt0 j⟩ : Fin R) (0 : Fin 1))).toInt = ((i 0).val : ℤ) ∧ (j 1).val = (i 1).val := by
  have hi0 := idx2_lt0 i
  have hi1 := idx2_lt1 i
  have hj1 := idx2_lt1 j
  have hall : ∀ P : Fin 2 → Prop, (∀ a, P a) ↔ P 0 ∧ P 1 := fun P =>
    ⟨fun h => ⟨h 0, h 1⟩, fun h a => by
      match a with
      | ⟨0, _⟩ => exact h.1
      | ⟨1, _⟩ => exact h.2⟩
  have hs0 : (⟨2, ![N, C]⟩ : Shape).size 0 = N := rfl
  have hs1 : (⟨2, ![N, C]⟩ : Shape).size 1 = C := rfl
  unfold ScatterDims.resultIdx?
  by_cases h : ∀ a : Fin (⟨2, ![N, C]⟩ : Shape).rank, 0 ≤ (putRowDims N R C wf).start j idx a + (putRowDims N R C wf).window j a ∧
      (putRowDims N R C wf).start j idx a + (putRowDims N R C wf).window j a < (⟨2, ![N, C]⟩ : Shape).size a
  · rw [dif_pos h]
    have h0 := h 0
    have h1 := h 1
    rw [putRow_start0, putRow_window0] at h0
    rw [putRow_start1, putRow_window1] at h1
    constructor
    · intro he
      have e := Option.some.inj he
      have e0 := congrArg (fun k : (⟨2, ![N, C]⟩ : Shape).Idx => (k 0).val) e
      have e1 := congrArg (fun k : (⟨2, ![N, C]⟩ : Shape).Idx => (k 1).val) e
      simp only [putRow_start0, putRow_window0, putRow_start1, putRow_window1] at e0 e1
      constructor <;> omega
    · rintro ⟨he0, he1⟩
      congr 1
      funext a
      refine Fin.ext ?_
      match a with
      | ⟨0, _⟩ =>
        show ((putRowDims N R C wf).start j idx 0 + (putRowDims N R C wf).window j 0).toNat = (i 0).val
        rw [putRow_start0, putRow_window0]
        omega
      | ⟨1, _⟩ =>
        show ((putRowDims N R C wf).start j idx 1 + (putRowDims N R C wf).window j 1).toNat = (i 1).val
        rw [putRow_start1, putRow_window1]
        omega
  · rw [dif_neg h]
    constructor
    · intro he; exact absurd he (by simp)
    · rintro ⟨he0, he1⟩
      exfalso
      apply h
      rw [hall]
      rw [putRow_start0, putRow_window0, putRow_start1, putRow_window1, hs0, hs1]
      omega

/-- The accumulating scatter of rows over the extended reals, read at (p, q): the operand there plus the sum, over
    the update rows whose scatter index (read signed) is p, of the update at column q. -/
theorem hostScatterAdd_rows_apply (x : (⟨2, ![N, C]⟩ : Shape).Idx → EReal) (idx : IVec ⟨2, ![R, 1]⟩ w)
    (upd : (⟨2, ![R, C]⟩ : Shape).Idx → EReal) (p : Fin N) (q : Fin C) :
    Ideal.hostScatterAdd (putRowDims N R C wf) x idx upd (ix2 p q)
      = x (ix2 p q) + ∑ n : Fin R, if (idx (ix2 n (0 : Fin 1))).toInt = (p.val : ℤ) then upd (ix2 n q) else 0 := by
  unfold Ideal.hostScatterAdd
  congr 1
  rw [sum_filter_of_iff _ _ _ (fun j => putRow_resultIdx?_eq_some_iff wf j idx (ix2 p q)), sum_idx2]
  refine Finset.sum_congr rfl fun n _ => ?_
  by_cases hn : (idx (ix2 n (0 : Fin 1))).toInt = (p.val : ℤ)
  · rw [if_pos hn, Finset.sum_eq_single q]
    · exact if_pos ⟨hn, rfl⟩
    · intro b _ hb
      exact if_neg fun hc => hb (Fin.ext hc.2)
    · intro hq; exact absurd (Finset.mem_univ q) hq
  · rw [if_neg hn]
    exact Finset.sum_eq_zero fun b _ => if_neg fun hc => hn hc.1

end Cert.Lib.RowScatter

end
-- ==== Proof.RefSide.lean ====
/-
  The reference program computes the round of message passing of the specification.

  Its two row lookups read row idx (or idx + 10000 when idx is negative) of the node table, kept inside the table; on a
  table entry that is a node's number this is that node's row. Its accumulating scatter adds message e to row idx(e),
  dropping an index outside the table; on node numbers this is the sum over the edges leaving the node. Everything else is
  read one operation at a time: the two perceptrons are dot products with a broadcast bias, the activation is spelt
  x · (1 / (1 + e⁻ˣ)), which is x · σ(x).
-/
import proofs.«429792_j52192442581787_3_alg».proof.Proof.Gen.ReferenceIdeal.Read
import proofs.«429792_j52192442581787_3_alg».proof.Proof.Spec
import proofs.«429792_j52192442581787_3_alg».proof.Proof.LibMatProduct
import proofs.«429792_j52192442581787_3_alg».proof.Proof.LibRowGather
import proofs.«429792_j52192442581787_3_alg».proof.Proof.LibRowScatter
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Cert.Gcl Idealize.ShloMosaic Idealize.ShloMosaic.ValueIdx

/-- The activation as the reference spells it is x · σ(x). -/
private theorem silu_spelt (x : Ideal .f32) :
    FloatOps.mulf x (FloatOps.hostDivf (FloatOps.ofBits .f32 0x3F800000#32)
      (FloatOps.addf (FloatOps.ofBits .f32 0x3F800000#32) (FloatOps.hostUnary .exp (FloatOps.hostNegf x)))) = silu x := by
  show x * Ideal.div (Ideal.ofBits .f32 0x3F800000#32) (Ideal.ofBits .f32 0x3F800000#32 + Ideal.exp (-x)) = x * Ideal.logistic x
  rw [Ideal.ofBits_one_f32]
  rfl

/-- A word that is a node's number is not negative as a signed integer. -/
private theorem word_toInt (w : BitVec 32) (hw : w.toNat < 10000) : w.toInt = (w.toNat : ℤ) :=
  BitVec.toInt_eq_toNat_of_lt (by omega)

/-- On a node's number the reference's wrap of negative indices does nothing. -/
private theorem wrap_id (w : BitVec 32) (hw : w.toNat < 10000) :
    Scalar.select (IntOp.cmpi .slt w 0#32) (IntOp.addi w 10000#32) w = w := by
  have h : w.slt 0#32 = false := by
    rw [BitVec.slt, word_toInt w hw]
    simp
  unfold Scalar.select IntOp.cmpi
  simp only [h]
  rfl

/-- On a node's number the row the lookup keeps inside the table is that number. -/
private theorem clamp_id (w : BitVec 32) (hw : w.toNat < 10000) : min w.toInt.toNat (10000 - 1) = w.toNat := by
  rw [word_toInt w hw]
  simp only [Int.toNat_natCast]
  omega

/-- The lookup's printed dimension numbers are the row lookup's. -/
private theorem gatherDims_eq : gather_S10000x128_S640000x1_S640000x128_1_0_n_n_0_1_1128
    = Cert.Lib.RowGather.rowDims 10000 128 640000 gather_S10000x128_S640000x1_S640000x128_1_0_n_n_0_1_1128_wf := rfl

/-- The scatter's printed dimension numbers are the row scatter's. -/
private theorem scatterDims_eq : scatter_S10000x128_S640000x1_S640000x128_1_0_0_1
    = Cert.Lib.RowScatter.putRowDims 10000 640000 128 scatter_S10000x128_S640000x1_S640000x128_1_0_0_1_wf := rfl

/-- The row lookup at (e, c) on a word that is a node's number: that node's row. -/
private theorem gather_at (x : S10000x128.Idx → EReal) (idx : IVec S640000x1 32) (e : Fin 640000) (c : Fin 128)
    (hw : (idx (ix2 e ⟨0, Nat.one_pos⟩)).toNat < 10000) :
    Host.gather gather_S10000x128_S640000x1_S640000x128_1_0_n_n_0_1_1128 x idx (ix2 e c)
      = x (ix2 ⟨(idx (ix2 e ⟨0, Nat.one_pos⟩)).toNat, hw⟩ c) := by
  rw [gatherDims_eq, Cert.Lib.RowGather.rowGather_apply (by decide)]
  congr 2
  exact Fin.ext (clamp_id _ hw)

/-- Two blocks of 128 columns side by side, read at (e, m). -/
private theorem concat_at {M : Nat} (a b : (⟨2, ![M, 128]⟩ : Shape).Idx → EReal)
    (h : Shape.Concatenates [(⟨2, ![M, 128]⟩ : Shape), (⟨2, ![M, 128]⟩ : Shape)] (⟨2, ![M, 256]⟩ : Shape) 1) (e : Fin M) (m : Fin 256) :
    concatenate (⟨2, ![M, 256]⟩ : Shape) 1 [⟨(⟨2, ![M, 128]⟩ : Shape), a⟩, ⟨(⟨2, ![M, 128]⟩ : Shape), b⟩] h (ix2 e m)
      = sideBySide (fun c => a (ix2 e c)) (fun c => b (ix2 e c)) m := by
  unfold sideBySide
  by_cases hm : m.val < 128
  · rw [dif_pos hm]
    exact concatenate_pair_apply_left 1 a b h (ix2 e m) rfl (ix2 e ⟨m.val, hm⟩) (fun d => by
      match d with
      | ⟨0, _⟩ => rfl
      | ⟨1, _⟩ => rfl)
  · rw [dif_neg hm]
    exact concatenate_pair_apply_right 1 a b h (ix2 e m) rfl rfl (ix2 e ⟨m.val - 128, by have := m.isLt; omega⟩) (fun d hd => by
      match d with
      | ⟨0, _⟩ => rfl
      | ⟨1, _⟩ => exact absurd rfl hd)
      (by show (m.val - 128) + 128 = m.val; omega)

/-- The accumulating scatter of rows into zeros at (p, q). -/
private theorem scatter_at (x : S10000x128.Idx → EReal) (idx : IVec S640000x1 32) (upd : S640000x128.Idx → EReal) (p : Fin 10000) (q : Fin 128) :
    Host.scatterAdd (F := Ideal) (φ := .f32) scatter_S10000x128_S640000x1_S640000x128_1_0_0_1 x idx upd (ix2 p q)
      = x (ix2 p q) + ∑ n : Fin 640000, if (idx (ix2 n (0 : Fin 1))).toInt = (p.val : ℤ) then upd (ix2 n q) else 0 := by
  rw [scatterDims_eq]
  exact Cert.Lib.RowScatter.hostScatterAdd_rows_apply _ x idx upd p q

/-! ## The edge table's words -/

section Words

variable (x1 : (⟨S2x640000, .i32⟩ : BufTy).Contents (Elt Ideal))

/-- Entry e of the first row of the edge table, as the reference slices and reshapes it. -/
private theorem v1_at (e : Fin 640000) : val_main_v1 (F := Ideal) x1 (ix1 e) = x1 (ix2 0 e) := by
  rw [val_main_v1_apply, val_main_v0_apply]
  congr 1
  funext a
  refine Fin.ext ?_
  match a with
  | ⟨0, _⟩ => rfl
  | ⟨1, _⟩ => exact Nat.mod_eq_of_lt e.isLt

/-- Entry e of the second row. -/
private theorem v3_at (e : Fin 640000) : val_main_v3 (F := Ideal) x1 (ix1 e) = x1 (ix2 1 e) := by
  rw [val_main_v3_apply, val_main_v2_apply]
  congr 1
  funext a
  refine Fin.ext ?_
  match a with
  | ⟨0, _⟩ => rfl
  | ⟨1, _⟩ => exact Nat.mod_eq_of_lt e.isLt

variable (hr : InRange x1)
include hr

/-- The source index the first lookup uses is the table's word: a node's number is not wrapped. -/
private theorem v9_at (e : Fin 640000) : val_main_v9 (F := Ideal) x1 (ix2 e ⟨0, Nat.one_pos⟩) = x1 (ix2 0 e) := by
  rw [val_main_v9_apply]
  have hi : idx_main_v9 (ix2 e (⟨0, Nat.one_pos⟩ : Fin 1)) = ix1 e := funext fun a => match a with | ⟨0, _⟩ => rfl
  rw [hi, val_main_v8_apply, val_main_v5_apply, val_main_v7_apply, val_main_v4_apply, val_main_c_apply, val_main_v6_apply,
    val_main_c_0_apply, v1_at]
  exact wrap_id _ (hr 0 e)

/-- The target index the second lookup uses is the table's word. -/
private theorem v16_at (e : Fin 640000) : val_main_v16 (F := Ideal) x1 (ix2 e ⟨0, Nat.one_pos⟩) = x1 (ix2 1 e) := by
  rw [val_main_v16_apply]
  have hi : idx_main_v16 (ix2 e (⟨0, Nat.one_pos⟩ : Fin 1)) = ix1 e := funext fun a => match a with | ⟨0, _⟩ => rfl
  rw [hi, val_main_v15_apply, val_main_v12_apply, val_main_v14_apply, val_main_v11_apply, val_main_c_1_apply, val_main_v13_apply,
    val_main_c_2_apply, v3_at]
  exact wrap_id _ (hr 1 e)

omit hr in
/-- The scatter's index of edge e is the source word itself. -/
private theorem v30_at (e : Fin 640000) : val_main_v30 (F := Ideal) x1 (ix2 e (0 : Fin 1)) = x1 (ix2 0 e) := by
  rw [val_main_v30_apply]
  have hi : idx_main_v30 (ix2 e (0 : Fin 1)) = ix1 e := funext fun a => match a with | ⟨0, _⟩ => rfl
  rw [hi, v1_at]

variable (x0 : (⟨S10000x128, .f32⟩ : BufTy).Contents (Elt Ideal))

/-- The first lookup reads the source node's row. -/
private theorem v10_at (e : Fin 640000) (c : Fin 128) : val_main_v10 (F := Ideal) x0 x1 (ix2 e c) = x0 (ix2 (nodeOf x1 0 e) c) := by
  have hw : (val_main_v9 (F := Ideal) x1 (ix2 e ⟨0, Nat.one_pos⟩)).toNat < 10000 := by rw [v9_at x1 hr]; exact hr 0 e
  unfold val_main_v10
  refine (gather_at x0 (val_main_v9 (F := Ideal) x1) e c hw).trans ?_
  congr 2
  refine Fin.ext ?_
  show (val_main_v9 (F := Ideal) x1 (ix2 e ⟨0, Nat.one_pos⟩)).toNat = (nodeOf x1 0 e).val
  rw [v9_at x1 hr, nodeOf_val hr]

/-- The second lookup reads the target node's row. -/
private theorem v17_at (e : Fin 640000) (c : Fin 128) : val_main_v17 (F := Ideal) x0 x1 (ix2 e c) = x0 (ix2 (nodeOf x1 1 e) c) := by
  have hw : (val_main_v16 (F := Ideal) x1 (ix2 e ⟨0, Nat.one_pos⟩)).toNat < 10000 := by rw [v16_at x1 hr]; exact hr 1 e
  unfold val_main_v17
  refine (gather_at x0 (val_main_v16 (F := Ideal) x1) e c hw).trans ?_
  congr 2
  refine Fin.ext ?_
  show (val_main_v16 (F := Ideal) x1 (ix2 e ⟨0, Nat.one_pos⟩)).toNat = (nodeOf x1 1 e).val
  rw [v16_at x1 hr, nodeOf_val hr]

/-- The joined rows of edge e: the source's row and the target's row side by side. -/
private theorem v18_at (e : Fin 640000) (m : Fin 256) :
    val_main_v18 (F := Ideal) x0 x1 (ix2 e m) = sideBySide (cur2 x0 (nodeOf x1 0 e)) (cur2 x0 (nodeOf x1 1 e)) m := by
  unfold val_main_v18
  refine (concat_at _ _ _ e m).trans ?_
  have ha : (fun c => val_main_v10 (F := Ideal) x0 x1 (ix2 e c)) = cur2 x0 (nodeOf x1 0 e) := funext fun c => v10_at x1 hr x0 e c
  have hb : (fun c => val_main_v17 (F := Ideal) x0 x1 (ix2 e c)) = cur2 x0 (nodeOf x1 1 e) := funext fun c => v17_at x1 hr x0 e c
  rw [ha, hb]

end Words

/-! ## The edge perceptron -/

section Edge

variable (x0 : (⟨S10000x128, .f32⟩ : BufTy).Contents (Elt Ideal)) (x1 : (⟨S2x640000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (hr : InRange x1)
include hr

/-- The first layer's product at (e, k). -/
private theorem v19_at (e : Fin 640000) (k : Fin 128) :
    val_main_v19 (F := Ideal) x0 x1 x2 (ix2 e k)
      = ∑ m : Fin 256, sideBySide (cur2 x0 (nodeOf x1 0 e)) (cur2 x0 (nodeOf x1 1 e)) m * x2 (ix2 m k) := by
  rw [val_main_v19_apply]
  refine Finset.sum_congr rfl fun m _ => ?_
  have hl : lidx_main_v19 (ix2 e k) m = ix2 e m := funext fun a => match a with | ⟨0, _⟩ => rfl | ⟨1, _⟩ => rfl
  have hq : ridx_main_v19 (ix2 e k) m = ix2 m k := funext fun a => match a with | ⟨0, _⟩ => rfl | ⟨1, _⟩ => rfl
  rw [hl, hq, v18_at x1 hr x0]

omit hr in
/-- The first bias, broadcast over the edges. -/
private theorem v21_at (e : Fin 640000) (k : Fin 128) : val_main_v21 (F := Ideal) x3 (ix2 e k) = x3 (ix1 k) := by
  rw [val_main_v21_apply, val_main_v20_apply]
  congr 1
  funext a
  match a with
  | ⟨0, _⟩ => rfl

/-- The first layer before its activation. -/
private theorem v22_at (e : Fin 640000) (k : Fin 128) :
    val_main_v22 (F := Ideal) x0 x1 x2 x3 (ix2 e k)
      = layer (sideBySide (cur2 x0 (nodeOf x1 0 e)) (cur2 x0 (nodeOf x1 1 e))) (cur2 x2) (cur1 x3) k := by
  rw [val_main_v22_apply, v19_at x0 x1 x2 hr, v21_at]
  rfl

/-- The hidden row of edge e. -/
private theorem v23_at (e : Fin 640000) (k : Fin 128) :
    val_main_v23 (F := Ideal) x0 x1 x2 x3 (ix2 e k) = edgeHidden (cur2 x0) (nodeOf x1 0) (nodeOf x1 1) (cur2 x2) (cur1 x3) e k := by
  rw [val_main_v23_apply, val_main_call0_v5_apply, val_main_call0_v4_apply, val_main_call0_cst_0_apply, val_main_call0_v3_apply,
    val_main_call0_v2_apply, val_main_call0_cst_apply, val_main_call0_v1_apply, val_main_call0_v0_apply, silu_spelt,
    v22_at x0 x1 x2 x3 hr]
  rfl

/-- The second layer's product at (e, j). -/
private theorem v24_at (e : Fin 640000) (j : Fin 128) :
    val_main_v24 (F := Ideal) x0 x1 x2 x3 x4 (ix2 e j)
      = ∑ k : Fin 128, edgeHidden (cur2 x0) (nodeOf x1 0) (nodeOf x1 1) (cur2 x2) (cur1 x3) e k * x4 (ix2 k j) := by
  rw [val_main_v24_apply]
  refine Finset.sum_congr rfl fun k _ => ?_
  have hl : lidx_main_v24 (ix2 e j) k = ix2 e k := funext fun a => match a with | ⟨0, _⟩ => rfl | ⟨1, _⟩ => rfl
  have hq : ridx_main_v24 (ix2 e j) k = ix2 k j := funext fun a => match a with | ⟨0, _⟩ => rfl | ⟨1, _⟩ => rfl
  rw [hl, hq, v23_at x0 x1 x2 x3 hr]

omit hr in
/-- The second bias, broadcast over the edges. -/
private theorem v26_at (e : Fin 640000) (j : Fin 128) : val_main_v26 (F := Ideal) x5 (ix2 e j) = x5 (ix1 j) := by
  rw [val_main_v26_apply, val_main_v25_apply]
  congr 1
  funext a
  match a with
  | ⟨0, _⟩ => rfl

/-- The message of edge e. -/
private theorem v28_at (e : Fin 640000) (j : Fin 128) :
    val_main_v28 (F := Ideal) x0 x1 x2 x3 x4 x5 (ix2 e j)
      = msg (cur2 x0) (nodeOf x1 0) (nodeOf x1 1) (cur2 x2) (cur1 x3) (cur2 x4) (cur1 x5) e j := by
  rw [val_main_v28_apply, val_main_call1_v5_apply, val_main_call1_v4_apply, val_main_call1_cst_0_apply, val_main_call1_v3_apply,
    val_main_call1_v2_apply, val_main_call1_cst_apply, val_main_call1_v1_apply, val_main_call1_v0_apply, silu_spelt,
    val_main_v27_apply, v24_at x0 x1 x2 x3 x4 hr, v26_at]
  rfl

end Edge

/-- The reference's second result is the array of messages. -/
theorem ref_msg (x0 : (⟨S10000x128, .f32⟩ : BufTy).Contents (Elt Ideal)) (x1 : (⟨S2x640000, .i32⟩ : BufTy).Contents (Elt Ideal)) (x2 : (⟨S256x128, .f32⟩ : BufTy).Contents (Elt Ideal))
    (x3 : (⟨S128, .f32⟩ : BufTy).Contents (Elt Ideal)) (x4 : (⟨S128x128, .f32⟩ : BufTy).Contents (Elt Ideal)) (x5 : (⟨S128, .f32⟩ : BufTy).Contents (Elt Ideal)) (hr : InRange x1) :
    val_main_v28 (F := Ideal) x0 x1 x2 x3 x4 x5 = msgOf x0 x1 x2 x3 x4 x5 := by
  funext i
  obtain ⟨e, j, rfl⟩ : ∃ (e : Fin 640000) (j : Fin 128), i = ix2 e j := ⟨i 0, i 1, eq_ix2 i⟩
  rw [v28_at x0 x1 x2 x3 x4 x5 hr, msgOf_ix2]

/-! ## The aggregate and the node perceptron -/

section Node

variable (x0 : (⟨S10000x128, .f32⟩ : BufTy).Contents (Elt Ideal)) (x1 : (⟨S2x640000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (hr : InRange x1)

/-- The scatter accumulates into zeros. -/
private theorem v29_at (i : S10000x128.Idx) : val_main_v29 (F := Ideal) i = 0 := by
  rw [val_main_v29_apply, val_main_cst_apply]
  exact Ideal.ofBits_zero_f32

/-- The divisor is the float 100. -/
private theorem v32_at (i : S10000x128.Idx) : val_main_v32 (F := Ideal) i = hundred := by
  rw [val_main_v32_apply, val_main_cst_3_apply]
  rfl

include hr

/-- The scatter at (n, q): the sum of the messages of the edges leaving n. -/
private theorem v31_at (n : Fin 10000) (q : Fin 128) :
    val_main_v31 (F := Ideal) x0 x1 x2 x3 x4 x5 (ix2 n q) = msgSum (cur2 x0) (nodeOf x1 0) (nodeOf x1 1) (cur2 x2) (cur1 x3) (cur2 x4) (cur1 x5) n q := by
  unfold val_main_v31
  refine (scatter_at _ _ _ n q).trans ?_
  rw [v29_at, zero_add]
  unfold msgSum
  refine Finset.sum_congr rfl fun e _ => ?_
  rw [v30_at, v28_at x0 x1 x2 x3 x4 x5 hr]
  have hiff : (x1 (ix2 0 e)).toInt = (n.val : ℤ) ↔ nodeOf x1 0 e = n := by
    rw [word_toInt _ (hr 0 e), ← nodeOf_val hr 0 e]
    constructor
    · intro h; exact Fin.ext (by exact_mod_cast h)
    · intro h; rw [h]
  exact if_congr hiff rfl rfl

/-- The aggregate of node n. -/
private theorem v33_at (n : Fin 10000) (q : Fin 128) :
    val_main_v33 (F := Ideal) x0 x1 x2 x3 x4 x5 (ix2 n q) = agg (cur2 x0) (nodeOf x1 0) (nodeOf x1 1) (cur2 x2) (cur1 x3) (cur2 x4) (cur1 x5) n q := by
  rw [val_main_v33_apply, v31_at x0 x1 x2 x3 x4 x5 hr, v32_at]
  rfl

/-- The old row and the aggregate side by side. -/
private theorem v34_at (n : Fin 10000) (m : Fin 256) :
    val_main_v34 (F := Ideal) x0 x1 x2 x3 x4 x5 (ix2 n m) = sideBySide (cur2 x0 n) (agg (cur2 x0) (nodeOf x1 0) (nodeOf x1 1) (cur2 x2) (cur1 x3) (cur2 x4) (cur1 x5) n) m := by
  unfold val_main_v34
  refine (concat_at _ _ _ n m).trans ?_
  have hb : (fun c => val_main_v33 (F := Ideal) x0 x1 x2 x3 x4 x5 (ix2 n c)) = agg (cur2 x0) (nodeOf x1 0) (nodeOf x1 1) (cur2 x2) (cur1 x3) (cur2 x4) (cur1 x5) n :=
    funext fun c => v33_at x0 x1 x2 x3 x4 x5 hr n c
  rw [hb]

/-- The node perceptron's first product at (n, k). -/
private theorem v35_at (n : Fin 10000) (k : Fin 128) :
    val_main_v35 (F := Ideal) x0 x1 x2 x3 x4 x5 x6 (ix2 n k)
      = ∑ m : Fin 256, sideBySide (cur2 x0 n) (agg (cur2 x0) (nodeOf x1 0) (nodeOf x1 1) (cur2 x2) (cur1 x3) (cur2 x4) (cur1 x5) n) m * x6 (ix2 m k) := by
  rw [val_main_v35_apply]
  refine Finset.sum_congr rfl fun m _ => ?_
  have hl : lidx_main_v35 (ix2 n k) m = ix2 n m := funext fun a => match a with | ⟨0, _⟩ => rfl | ⟨1, _⟩ => rfl
  have hq : ridx_main_v35 (ix2 n k) m = ix2 m k := funext fun a => match a with | ⟨0, _⟩ => rfl | ⟨1, _⟩ => rfl
  rw [hl, hq, v34_at x0 x1 x2 x3 x4 x5 hr]

omit hr in
/-- The node perceptron's first bias, broadcast over the nodes. -/
private theorem v37_at (n : Fin 10000) (k : Fin 128) : val_main_v37 (F := Ideal) x7 (ix2 n k) = x7 (ix1 k) := by
  rw [val_main_v37_apply, val_main_v36_apply]
  congr 1
  funext a
  match a with
  | ⟨0, _⟩ => rfl

/-- The hidden row of node n. -/
private theorem v39_at (n : Fin 10000) (k : Fin 128) :
    val_main_v39 (F := Ideal) x0 x1 x2 x3 x4 x5 x6 x7 (ix2 n k)
      = nodeHidden (cur2 x0) (nodeOf x1 0) (nodeOf x1 1) (cur2 x2) (cur1 x3) (cur2 x4) (cur1 x5) (cur2 x6) (cur1 x7) n k := by
  rw [val_main_v39_apply, val_main_call2_v5_apply, val_main_call2_v4_apply, val_main_call2_cst_0_apply, val_main_call2_v3_apply,
    val_main_call2_v2_apply, val_main_call2_cst_apply, val_main_call2_v1_apply, val_main_call2_v0_apply, silu_spelt,
    val_main_v38_apply, v35_at x0 x1 x2 x3 x4 x5 x6 hr, v37_at]
  rfl

/-- The node perceptron's second product at (n, j). -/
private theorem v40_at (n : Fin 10000) (j : Fin 128) :
    val_main_v40 (F := Ideal) x0 x1 x2 x3 x4 x5 x6 x7 x8 (ix2 n j)
      = ∑ k : Fin 128, nodeHidden (cur2 x0) (nodeOf x1 0) (nodeOf x1 1) (cur2 x2) (cur1 x3) (cur2 x4) (cur1 x5) (cur2 x6) (cur1 x7) n k * x8 (ix2 k j) := by
  rw [val_main_v40_apply]
  refine Finset.sum_congr rfl fun k _ => ?_
  have hl : lidx_main_v40 (ix2 n j) k = ix2 n k := funext fun a => match a with | ⟨0, _⟩ => rfl | ⟨1, _⟩ => rfl
  have hq : ridx_main_v40 (ix2 n j) k = ix2 k j := funext fun a => match a with | ⟨0, _⟩ => rfl | ⟨1, _⟩ => rfl
  rw [hl, hq, v39_at x0 x1 x2 x3 x4 x5 x6 x7 hr]

omit hr in
/-- The node perceptron's second bias, broadcast over the nodes. -/
private theorem v42_at (n : Fin 10000) (j : Fin 128) : val_main_v42 (F := Ideal) x9 (ix2 n j) = x9 (ix1 j) := by
  rw [val_main_v42_apply, val_main_v41_apply]
  congr 1
  funext a
  match a with
  | ⟨0, _⟩ => rfl

/-- The new row of node n. -/
private theorem v44_at (n : Fin 10000) (j : Fin 128) :
    val_main_v44 (F := Ideal) x0 x1 x2 x3 x4 x5 x6 x7 x8 x9 (ix2 n j)
      = upd (cur2 x0) (nodeOf x1 0) (nodeOf x1 1) (cur2 x2) (cur1 x3) (cur2 x4) (cur1 x5) (cur2 x6) (cur1 x7) (cur2 x8) (cur1 x9) n j := by
  rw [val_main_v44_apply, val_main_v43_apply, v40_at x0 x1 x2 x3 x4 x5 x6 x7 x8 hr, v42_at]
  rfl

end Node

/-- The reference's first result is the array of new rows. -/
theorem ref_upd (x0 : (⟨S10000x128, .f32⟩ : BufTy).Contents (Elt Ideal)) (x1 : (⟨S2x640000, .i32⟩ : BufTy).Contents (Elt Ideal)) (x2 : (⟨S256x128, .f32⟩ : BufTy).Contents (Elt Ideal))
    (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal))
    (x7 : (⟨S128, .f32⟩ : BufTy).Contents (Elt Ideal)) (x8 : (⟨S128x128, .f32⟩ : BufTy).Contents (Elt Ideal)) (x9 : (⟨S128, .f32⟩ : BufTy).Contents (Elt Ideal)) (hr : InRange x1) :
    val_main_v44 (F := Ideal) x0 x1 x2 x3 x4 x5 x6 x7 x8 x9 = updOf x0 x1 x2 x3 x4 x5 x6 x7 x8 x9 := by
  funext i
  obtain ⟨n, j, rfl⟩ : ∃ (n : Fin 10000) (j : Fin 128), i = ix2 n j := ⟨i 0, i 1, eq_ix2 i⟩
  rw [v44_at x0 x1 x2 x3 x4 x5 x6 x7 x8 x9 hr, updOf_ix2]

end Cert.ReferenceIdeal.RefValue

end
-- ==== Proof.PreRange.lean ====
/-
  From the precondition to the range of the edge table.

  The printed precondition is a conjunction: every float argument is finite, and every word of the 2 × 640000 edge table,
  read as a signed number, is at least 0 and below 10000. Only the last conjunct is needed: it says that every entry of
  the table is a node's number.
-/
import proofs.«429792_j52192442581787_3_alg».proof.Pre_finite_inputs
import proofs.«429792_j52192442581787_3_alg».proof.Proof.Gen.Pre_finite_inputs
import proofs.«429792_j52192442581787_3_alg».proof.Proof.Spec
import Idealize.ShloMosaic.Lib.ValueIdx
import Idealize.ShloMosaic.Lib.ReduceAll
import Idealize.ShloMosaic.Lib.StableHlo.Predicate

noncomputable section

open scoped BigOperators

namespace Cert.Pre_finite_inputs.Range

open Cert.Pre_finite_inputs Cert.Pre_finite_inputs.Gen Cert.Gcl Idealize.ShloMosaic Idealize.ShloMosaic.ValueIdx

/-- The shape with no axes has exactly one index. -/
private instance subsingleton_scalar_idx : Subsingleton S_.Idx := ⟨fun a b => funext fun d => d.elim0⟩

/-- A 32-bit word that, read as a signed number, is at least 0 and below 10000 is below 10000 as a natural number:
    a non-negative signed reading is the unsigned reading. -/
private theorem toNat_lt_of_signed_bounds (w : BitVec 32) (h0 : (0 : Int) ≤ w.toInt) (h1 : w.toInt < 10000) :
    w.toNat < 10000 := by
  have hw := w.isLt
  rw [BitVec.toInt_eq_toNat_cond] at h0 h1
  split_ifs at h0 h1 with hc <;> omega

/-- If the precondition holds of the arguments, every entry of the edge table is below 10000 as a natural number. -/
theorem inRange_of_pre (a0 : FVec Ideal S10000x128 .f32) (a1 : IVec S2x640000 32) (a2 : FVec Ideal S256x128 .f32)
    (a3 : FVec Ideal S128 .f32) (a4 : FVec Ideal S128x128 .f32) (a5 : FVec Ideal S128 .f32) (a6 : FVec Ideal S256x128 .f32)
    (a7 : FVec Ideal S128 .f32) (a8 : FVec Ideal S128x128 .f32) (a9 : FVec Ideal S128 .f32)
    (h : Cert.Pre_finite_inputs.fn (F := Ideal) a0 a1 a2 a3 a4 a5 a6 a7 a8 a9 = (fun _ => 1#1)) : InRange a1 := by
  intro r e
  -- the value of the precondition at its one index is the conjunction of the float part and the table part
  have h0 := congrFun h ValueIdx.ix0
  dsimp only [fn, fn_part1, fn_part2] at h0
  -- only the table part is needed
  obtain ⟨-, h49⟩ := IntOp.andi_eq_one.1 h0
  -- the conjunction over the whole table is 1, so it is 1 at the entry (r, e)
  have hx := Host.reduce_andi_all _ _ _ _ _ h49 (ix2 r e)
  -- at that entry it is the conjunction of the two signed comparisons of the word
  have hx' : IntOp.andi (IntOp.cmpi .sge (a1 (ix2 r e)) 0#32) (IntOp.cmpi .slt (a1 (ix2 r e)) 10000#32) = 1#1 := hx
  obtain ⟨hge, hlt⟩ := IntOp.andi_eq_one.1 hx'
  rw [IntOp.cmpi_sge] at hge
  rw [IntOp.cmpi_slt] at hlt
  have z0 : (0#32 : BitVec 32).toInt = 0 := by decide
  have z1 : (10000#32 : BitVec 32).toInt = 10000 := by decide
  rw [z0] at hge
  rw [z1] at hlt
  exact toNat_lt_of_signed_bounds _ hge hlt

end Cert.Pre_finite_inputs.Range

end
-- ==== Proof.lean ====
/-
  The certificate: a Pallas kernel for one round of message passing on a graph computes, over the extended reals, what
  its jnp reference computes, on every input whose floats are finite and whose edge table holds node numbers (every
  entry at least 0 and below 10000).

  THE TWO PROGRAMS. 10000 nodes carry rows of 128 numbers; 640000 edges each name a source and a target node. The
  message of an edge is a two-layer perceptron with the activation x · σ(x) applied to the source's and the target's rows
  side by side; a node's aggregate is the sum of the messages of the edges leaving it, divided by 100; a node's new row is
  its old row plus a second perceptron of the old row and the aggregate side by side. The results are the new rows and
  the messages. The reference looks rows up with a gather, sums with an accumulating scatter, and multiplies whole
  matrices. The kernel clips the edge table to the node range, pads the node table, and runs two pipelined regions. The
  first walks the edges in 5000 steps of 128, half on each core: it looks rows up by multiplying a 0/1 matrix (row e is 1
  at e's node) with the table, runs the edge perceptron on the block, and adds the block's messages into the core's
  aggregate by multiplying with the transposed 0/1 matrix. The second walks the nodes in 2 steps of 5000: it adds the two
  cores' aggregates, divides by 100 and runs the node perceptron.

  WHY THEY AGREE. Over the extended reals a change of float format is the identity, σ(x) is 1 / (1 + e⁻ˣ) however it is
  spelt, and a matrix product into a zero accumulator is the plain sum of products. A sum of 0/1-weighted rows in which
  one weight is 1 is that row (0 · x = 0 and 1 · x = x for every extended real), so the kernel's lookups are the
  reference's on a table of node numbers, where clipping changes nothing and the reference's index arithmetic is the
  identity. The kernel's aggregate is the reference's sum regrouped — by core, by step, by place in the step —, and
  addition of extended reals is commutative and associative. No step needs a number to be finite; the hypothesis that is
  used is the range of the edge table: outside it the reference itself reads a wrapped or clamped row and drops the
  scattered message, while the kernel clips.

  THE PARTS. The three frames: the two kernel programs' are the generated frame certificates; the reference's is its
  generated run with the results dropped. `preserves`: the idealization rewrote nothing, so there is nothing to state.
  `algebraic`: both programs' results are the specification's arrays `updOf` and `msgOf` of the arguments (Spec.lean) —
  the kernel's by KernelSide.lean (the two regions read as values, the host operations around them, the program's run
  with its results named), the reference's by RefSide.lean over its generated run read one operation at a time — and the
  range of the edge table is read off the precondition (PreRange.lean).
-/
import proofs.«429792_j52192442581787_3_alg».proof.Defs
import proofs.«429792_j52192442581787_3_alg».proof.Proof.Gen.Kernel
import proofs.«429792_j52192442581787_3_alg».proof.Proof.Gen.Kernel.Skeleton
import proofs.«429792_j52192442581787_3_alg».proof.Proof.Gen.Kernel.Launch
import proofs.«429792_j52192442581787_3_alg».proof.Proof.Gen.Kernel.Points
import proofs.«429792_j52192442581787_3_alg».proof.Proof.Gen.Kernel.Frame
import proofs.«429792_j52192442581787_3_alg».proof.Proof.Gen.KernelIdeal
import proofs.«429792_j52192442581787_3_alg».proof.Proof.Gen.KernelIdeal.Skeleton
import proofs.«429792_j52192442581787_3_alg».proof.Proof.Gen.KernelIdeal.Launch
import proofs.«429792_j52192442581787_3_alg».proof.Proof.Gen.KernelIdeal.Points
import proofs.«429792_j52192442581787_3_alg».proof.Proof.Gen.KernelIdeal.Frame
import proofs.«429792_j52192442581787_3_alg».proof.Proof.Gen.ReferenceIdeal
import proofs.«429792_j52192442581787_3_alg».proof.Proof.Gen.Pre_finite_inputs
import proofs.«429792_j52192442581787_3_alg».proof.Proof.Gen.ReferenceIdeal.Run
import proofs.«429792_j52192442581787_3_alg».proof.Proof.Gen.ReferenceIdeal.Read
import proofs.«429792_j52192442581787_3_alg».proof.Proof.KernelSide
import proofs.«429792_j52192442581787_3_alg».proof.Proof.RefSide
import proofs.«429792_j52192442581787_3_alg».proof.Proof.PreRange
import Idealize.ShloMosaic.Adequacy
import Idealize.ShloMosaic.Init

noncomputable section

namespace Cert.Proof

open Idealize.ShloMosaic Idealize.SL.Sem Cert.Gcl

/-- The kernel program as compiled terminates, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, under the precondition, both programs end with the new rows and the
    messages of the specification. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg1)) :=
    fun c => Cert.Pre_finite_inputs.Range.inRange_of_pre _ _ _ _ _ _ _ _ _ _ (hpre c)
  refine ⟨_, _, Cert.KernelIdeal.Side.run m ρ hr, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v44_eq, a0, a1, a2, a3, a4, a5, a6, a7, a8, a9]
    exact Cert.ReferenceIdeal.RefValue.ref_upd _ _ _ _ _ _ _ _ _ _ (hr c)
  · rw [Cert.ReferenceIdeal.Read.val_main_v28_eq, a0, a1, a2, a3, a4, a5]
    exact Cert.ReferenceIdeal.RefValue.ref_msg _ _ _ _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
